-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024 : Shape := ⟨2, ![4, 1024]⟩
abbrev S4x512 : Shape := ⟨2, ![4, 512]⟩
abbrev S32000x512 : Shape := ⟨2, ![32000, 512]⟩
abbrev S512x512 : Shape := ⟨2, ![512, 512]⟩
abbrev S1x1024x512 : Shape := ⟨3, ![1, 1024, 512]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S1x1024x512 : S_.BroadcastsInDim S1x1024x512 (![] : Fin 0 → Fin S1x1024x512.rank)
  reducesTo_S1x1024x512_S_d0_1_2 : S1x1024x512.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg0 : IVec S4x1024 32) (main_v13 : IVec S_ 1) (main_v15 : IVec S4x1024 1) (main_c_5 : IVec S_ 32) : IVec S_ 1 :=
  let main_v16 : IVec S4x1024 32 := broadcastInDim S4x1024 ![] bcast_S_S4x1024 main_c_5
  let main_v17 : IVec S4x1024 1 := cmpi .slt main_arg0 main_v16
  let main_v18 : IVec S4x1024 1 := andi main_v15 main_v17
  let main_c_6 : IVec S_ 1 := constantI S_ 1 1#1
  let main_v19 : IVec S_ 1 := (fun x v => Host.reduce IntOp.andi x v reducesTo_S4x1024_S_d0_1 h_S_) main_v18 main_c_6
  let main_v20 : IVec S_ 1 := andi main_v13 main_v19
  main_v20

def fn {F : FTy → Type} [FloatOps F] (main_arg0 : IVec S4x1024 32) (main_arg1 : IVec S4x512 32) (main_arg2 : IVec S4x512 32) (main_arg3 : FVec F S32000x512 .f32) (main_arg4 : FVec F S512x512 .f32) (main_arg5 : FVec F S1x1024x512 .f32) : IVec S_ 1 :=
  let main_v0 : FVec F S32000x512 .f32 := Host.absf main_arg3
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S512x512 .f32 := Host.absf main_arg4
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1x1024x512 .f32 := Host.absf main_arg5
  let main_cst_2 : FVec F S_ .f32 := constant S_ .f32 0x7F800000#32
  let main_v10 : FVec F S1x1024x512 .f32 := broadcastInDim S1x1024x512 ![] bcast_S_S1x1024x512 main_cst_2
  let main_v11 : IVec S1x1024x512 1 := cmpf .olt main_v9 main_v10
  let main_c_3 : IVec S_ 1 := constantI S_ 1 1#1
  let main_v12 : IVec S_ 1 := (fun x v => Host.reduce IntOp.andi x v reducesTo_S1x1024x512_S_d0_1_2 h_S_) main_v11 main_c_3
  let main_v13 : IVec S_ 1 := andi main_v8 main_v12
  let main_c_4 : IVec S_ 32 := constantI S_ 32 0#32
  let main_v14 : IVec S4x1024 32 := broadcastInDim S4x1024 ![] bcast_S_S4x1024 main_c_4
  let main_v15 : IVec S4x1024 1 := cmpi .sge main_arg0 main_v14
  let main_c_5 : IVec S_ 32 := constantI S_ 32 32000#32
  fn_part1 (F := F) main_arg0 main_v13 main_v15 main_c_5
-- ==== Kernel.lean ====
abbrev S4x1024 : Shape := ⟨2, ![4, 1024]⟩
abbrev S4x512 : Shape := ⟨2, ![4, 512]⟩
abbrev S32000x512 : Shape := ⟨2, ![32000, 512]⟩
abbrev S512x512 : Shape := ⟨2, ![512, 512]⟩
abbrev S1x1024x512 : Shape := ⟨3, ![1, 1024, 512]⟩
abbrev S4096 : Shape := ⟨1, ![4096]⟩
abbrev S32000x4x128 : Shape := ⟨3, ![32000, 4, 128]⟩
abbrev S4096x4x128 : Shape := ⟨3, ![4096, 4, 128]⟩
abbrev S1x4x128 : Shape := ⟨3, ![1, 4, 128]⟩
abbrev S1 : Shape := ⟨1, ![1]⟩
abbrev S4096x512 : Shape := ⟨2, ![4096, 512]⟩
abbrev S4x1024x512 : Shape := ⟨3, ![4, 1024, 512]⟩
abbrev S4x1x512 : Shape := ⟨3, ![4, 1, 512]⟩
abbrev S1x256x512 : Shape := ⟨3, ![1, 256, 512]⟩
abbrev S1x1x512 : Shape := ⟨3, ![1, 1, 512]⟩
abbrev S256x1 : Shape := ⟨2, ![256, 1]⟩
abbrev S512 : Shape := ⟨1, ![512]⟩
abbrev S1x512 : Shape := ⟨2, ![1, 512]⟩
abbrev S256x512 : Shape := ⟨2, ![256, 512]⟩

abbrev nBuf : Space → Nat
  | .hbm => 13
  | .vmem => 15
  | .smem => 1
  | _ => 0

abbrev bufTy : (tb : Table) → Fin (tcTables nBuf tb) → BufTy
  | .hbm, ⟨0, _⟩ => ⟨S4x1024, .i32⟩
  | .hbm, ⟨1, _⟩ => ⟨S4x512, .i32⟩
  | .hbm, ⟨2, _⟩ => ⟨S4x512, .i32⟩
  | .hbm, ⟨3, _⟩ => ⟨S32000x512, .f32⟩
  | .hbm, ⟨4, _⟩ => ⟨S512x512, .f32⟩
  | .hbm, ⟨5, _⟩ => ⟨S1x1024x512, .f32⟩
  | .hbm, ⟨6, _⟩ => ⟨S32000x4x128, .f32⟩
  | .hbm, ⟨7, _⟩ => ⟨S4096x4x128, .f32⟩
  | .hbm, ⟨8, _⟩ => ⟨S4096x512, .f32⟩
  | .hbm, ⟨9, _⟩ => ⟨S4x1024x512, .f32⟩
  | .hbm, ⟨10, _⟩ => ⟨S4x1x512, .i32⟩
  | .hbm, ⟨11, _⟩ => ⟨S4x1x512, .i32⟩
  | .hbm, ⟨12, _⟩ => ⟨S4x1024x512, .f32⟩
  | .local _ .vmem, ⟨0, _⟩ => ⟨S1x4x128, .f32⟩
  | .local _ .vmem, ⟨1, _⟩ => ⟨S1x4x128, .f32⟩
  | .local _ .vmem, ⟨2, _⟩ => ⟨S1x4x128, .f32⟩
  | .local _ .vmem, ⟨3, _⟩ => ⟨S1x4x128, .f32⟩
  | .local _ .vmem, ⟨4, _⟩ => ⟨S1x256x512, .f32⟩
  | .local _ .vmem, ⟨5, _⟩ => ⟨S1x256x512, .f32⟩
  | .local _ .vmem, ⟨6, _⟩ => ⟨S1x1x512, .i32⟩
  | .local _ .vmem, ⟨7, _⟩ => ⟨S1x1x512, .i32⟩
  | .local _ .vmem, ⟨8, _⟩ => ⟨S1x1x512, .i32⟩
  | .local _ .vmem, ⟨9, _⟩ => ⟨S1x1x512, .i32⟩
  | .local _ .vmem, ⟨10, _⟩ => ⟨S512x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .smem, ⟨0, _⟩ => ⟨S4096, .i32⟩
  | _, _ => ⟨S4x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![4096], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x1024_S4096 : S4x1024.ShapeCasts S4096
  shapeCasts_S32000x512_S32000x4x128 : S32000x512.ShapeCasts S32000x4x128
  numel1_S1 : S1.numel = 1
  inb_S1x4x128_S1x4x128_0_0_0 : ∀ a, (![0, 0, 0] : Fin 3 → Nat) a + S1x4x128.size a ≤ S1x4x128.size a
  h_S1x4x128 : 0 < S1x4x128.numel
  shapeCasts_S1x4x128_S1x4x128 : S1x4x128.ShapeCasts S1x4x128
  shapeCasts_S4096x4x128_S4096x512 : S4096x4x128.ShapeCasts S4096x512
  shapeCasts_S4096x512_S4x1024x512 : S4096x512.ShapeCasts S4x1024x512
  shapeCasts_S4x512_S4x1x512 : S4x512.ShapeCasts S4x1x512
  iota_S256x1_d0_w32 : S256x1.Iotas .tc 32 [0]
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S256x512 : S1x512.Broadcasts S256x512
  broadcasts_S256x1_S256x512 : S256x1.Broadcasts S256x512
  natLt_1_32 : 1 < 32
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  dot_S256x512_S512x512_S256x512_1_0_0_1_n_n_wf : DotDims.WF S256x512 S512x512 S256x512 [1] [0] [0] [1] [] []
  hrank0 : 0 < grid0.rank
  k0_off1_inb : ∀ i : grid0.Coords, ∀ a, (k0_off1 i) a + S1.size a ≤ S4096.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x128.size a ≤ S4096x4x128.size a
  hwx0_1 : ∀ i : grid0.Coords, EltTy.bits .f32 = 32 ∨ (Rect.block (s := S4096x4x128) S1x4x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S4x1024x512.size a
  hwx1_0 : ∀ i : grid1.Coords, EltTy.bits .f32 = 32 ∨ (Rect.block (s := S4x1024x512) S1x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S4x1x512.size a
  hwx1_1 : ∀ i : grid1.Coords, EltTy.bits .i32 = 32 ∨ (Rect.block (s := S4x1x512) S1x1x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S4x1x512.size a
  hwx1_2 : ∀ i : grid1.Coords, EltTy.bits .i32 = 32 ∨ (Rect.block (s := S4x1x512) S1x1x512.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x512.size a ≤ S1x1024x512.size a
  hwx1_4 : ∀ i : grid1.Coords, EltTy.bits .f32 = 32 ∨ (Rect.block (s := S1x1024x512) S1x256x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x512.size a ≤ S4x1024x512.size a
  hwx1_5 : ∀ i : grid1.Coords, EltTy.bits .f32 = 32 ∨ (Rect.block (s := S4x1024x512) S1x256x512.size (cc1_transform_5 i) (hinb1_5 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev spec0_0 : Pipeline.WinSpec sig grid0.rank :=
  Pipeline.WinSpec.ofSpec (Memref.whole main_v1) S1x4x128.size reads0_0 false false 2 stage0_0 sem0_0 nbuf0_0 hstage0_0

abbrev spec0_1 : Pipeline.WinSpec sig grid0.rank :=
  Pipeline.WinSpec.ofSpec (Memref.whole main_v2) S1x4x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x4x128.size a ≤ S32000x4x128.size a), EltTy.bits .f32 = 32 ∨ (Rect.block (s := S32000x4x128) S1x4x128.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))
abbrev win1_0 : Pipeline.Window sig grid1 :=
  Pipeline.Window.ofSpec (Memref.whole main_v4) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1x256x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x256x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  harr0 : ∀ w, (spec0 w).arr.IsWhole

variable [Facts]
-- ==== ReferenceIdeal.lean ====
abbrev S4x1024 : Shape := ⟨2, ![4, 1024]⟩
abbrev S4x512 : Shape := ⟨2, ![4, 512]⟩
abbrev S32000x512 : Shape := ⟨2, ![32000, 512]⟩
abbrev S512x512 : Shape := ⟨2, ![512, 512]⟩
abbrev S1x1024x512 : Shape := ⟨3, ![1, 1024, 512]⟩
abbrev S_ : Shape := ⟨0, ![]⟩
abbrev S4x1024x1 : Shape := ⟨3, ![4, 1024, 1]⟩
abbrev S4x1024x512 : Shape := ⟨3, ![4, 1024, 512]⟩
abbrev S1024 : Shape := ⟨1, ![1024]⟩
abbrev S4x1x512 : Shape := ⟨3, ![4, 1, 512]⟩
abbrev S1x1024x1 : Shape := ⟨3, ![1, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x1024, .i32⟩
  | .hbm, ⟨1, _⟩ => ⟨S4x512, .i32⟩
  | .hbm, ⟨2, _⟩ => ⟨S4x512, .i32⟩
  | .hbm, ⟨3, _⟩ => ⟨S32000x512, .f32⟩
  | .hbm, ⟨4, _⟩ => ⟨S512x512, .f32⟩
  | .hbm, ⟨5, _⟩ => ⟨S1x1024x512, .f32⟩
  | .hbm, ⟨6, _⟩ => ⟨S_, .i32⟩
  | .hbm, ⟨7, _⟩ => ⟨S4x1024, .i32⟩
  | .hbm, ⟨8, _⟩ => ⟨S4x1024, .i1⟩
  | .hbm, ⟨9, _⟩ => ⟨S_, .i32⟩
  | .hbm, ⟨10, _⟩ => ⟨S4x1024, .i32⟩
  | .hbm, ⟨11, _⟩ => ⟨S4x1024, .i32⟩
  | .hbm, ⟨12, _⟩ => ⟨S4x1024, .i32⟩
  | .hbm, ⟨13, _⟩ => ⟨S4x1024x1, .i32⟩
  | .hbm, ⟨14, _⟩ => ⟨S4x1024x512, .f32⟩
  | .hbm, ⟨15, _⟩ => ⟨S1024, .i32⟩
  | .hbm, ⟨16, _⟩ => ⟨S4x1x512, .i32⟩
  | .hbm, ⟨17, _⟩ => ⟨S1x1024x1, .i32⟩
  | .hbm, ⟨18, _⟩ => ⟨S4x1024x512, .i32⟩
  | .hbm, ⟨19, _⟩ => ⟨S4x1024x512, .i32⟩
  | .hbm, ⟨20, _⟩ => ⟨S4x1024x512, .i1⟩
  | .hbm, ⟨21, _⟩ => ⟨S1x1024x1, .i32⟩
  | .hbm, ⟨22, _⟩ => ⟨S4x1x512, .i32⟩
  | .hbm, ⟨23, _⟩ => ⟨S4x1024x512, .i32⟩
  | .hbm, ⟨24, _⟩ => ⟨S4x1024x512, .i32⟩
  | .hbm, ⟨25, _⟩ => ⟨S4x1024x512, .i1⟩
  | .hbm, ⟨26, _⟩ => ⟨S4x1024x512, .i1⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S4x1024x512, .f32⟩
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x512_S4x1x512_0_2 : S4x512.BroadcastsInDim S4x1x512 (![0, 2] : Fin 2 → Fin S4x1x512.rank)
  bcast_S1024_S1x1024x1_1 : S1024.BroadcastsInDim S1x1024x1 (![1] : Fin 1 → Fin S1x1024x1.rank)
  bcast_S4x1x512_S4x1024x512_0_1_2 : S4x1x512.BroadcastsInDim S4x1024x512 (![0, 1, 2] : Fin 3 → Fin S4x1024x512.rank)
  bcast_S1x1024x1_S4x1024x512_0_1_2 : S1x1024x1.BroadcastsInDim S4x1024x512 (![0, 1, 2] : Fin 3 → Fin S4x1024x512.rank)
  bcast_S1x1024x512_S4x1024x512_0_1_2 : S1x1024x512.BroadcastsInDim S4x1024x512 (![0, 1, 2] : Fin 3 → Fin S4x1024x512.rank)
  gather_S32000x512_S4x1024x1_S4x1024x512_2_0_n_n_0_2_1512_wf : GatherDims.WF S32000x512 S4x1024x1 S4x1024x512 [2] [0] [] [0] [] 2 ![1, 512]
  dot_S4x1024x512_S512x512_S4x1024x512_2_0_01_1_n_n_wf : DotDims.WF S4x1024x512 S512x512 S4x1024x512 [2] [0] [0, 1] [1] [] []

variable [Facts₀]

def gather_S32000x512_S4x1024x1_S4x1024x512_2_0_n_n_0_2_1512 : GatherDims S32000x512 S4x1024x1 S4x1024x512 where
  offsetDims := [2]
  collapsedSliceDims := [0]
  operandBatchingDims := []
  startIndicesBatchingDims := []
  startIndexMap := [0]
  indexVectorDim := 2
  sliceSizes := ![1, 512]
  wf := gather_S32000x512_S4x1024x1_S4x1024x512_2_0_n_n_0_2_1512_wf
def dot_S4x1024x512_S512x512_S4x1024x512_2_0_01_1_n_n : DotDims S4x1024x512 S512x512 S4x1024x512 where
  lhsContracting := [2]
  rhsContracting := [0]
  lhsNonContracting := [0, 1]
  rhsNonContracting := [1]
  lhsBatch := []
  rhsBatch := []
  wf := dot_S4x1024x512_S512x512_S4x1024x512_2_0_01_1_n_n_wf

class Facts : Prop extends Facts₀ where

variable [Facts]
-- ==== Proof.KRegion0.lean ====
/-
  The first launch of the program: the row gather. Grid point t fetches, as its one input block, the row of the
  reshaped table [32000, 4, 128] that word t of the prefetched token table names, and the body copies that block
  into the output block, which is written back to row t of the [4096, 4, 128] result. Stated here, at any contents V
  of the buffers when the launch is entered and any admissible contents a of the token table: each window's block at a
  point, what the body leaves in the output's staging buffer (the loaded block, re-laid by an identity cast), the body's
  triple, the launch's proof data and its body obligation. The token table rides through the launch untouched, held
  whole beside the kernel's scratch in the invariant.
-/
import proofs.«400847_j31129922962205_2_alg».proof.Proof.Gen.Kernel.Launch
import proofs.«400847_j31129922962205_2_alg».proof.Proof.Gen.Kernel.Skeleton
import proofs.«400847_j31129922962205_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg0 (F := F)).Adm)

/-! ## The windows' blocks -/

/-- Window w's block at point t, read off its array as the launch finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The input window's current staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

/-- The one rectangle the body touches: the whole [1, 4, 128] block. -/
abbrev r0 : Rect S1x4x128 := Rect.unit (s := S1x4x128) ![0, 0, 0] S1x4x128.size inb_S1x4x128_S1x4x128_0_0_0

/-- The output's staging buffer after the body: its one store, of the loaded input block. -/
def out0_1 (x0 : Vec F S1x4x128 .f32) : Vec F S1x4x128 .f32 :=
  View.canon [⟨r0, k0_pay1 (View.ld x0 r0)⟩]

/-- The store covers the buffer. -/
theorem cover0_1 (p0 : Vec F S1x4x128 .f32) (y : S1x4x128.Idx) :
    ∃ pc ∈ ([⟨r0, p0⟩] : List (View.Piece (Elt F) S1x4x128 .f32)), y ∈ pc.1.set :=
  View.cover_of_tiled [⟨r0, p0⟩] S1x4x128.size (by rfl) y

/-- Each window's current staging memref at point t. -/
abbrev st0_0 (t : Fin (cfg0 a).N) := ((cfg0 a).win 0).stage ((cfg0 a).slots t 0)
abbrev st0_1 (t : Fin (cfg0 a).N) := ((cfg0 a).win 1).stage ((cfg0 a).slots t 1)

/-- The body at point t, on what the pipeline calls it with. -/
abbrev bodyAt0 (t : Fin (cfg0 a).N) : Prog (TpuEff nD τ sig (Elt F) Λ₀ .tc) PUnit :=
  cc0__gather_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

set_option maxHeartbeats 1000000 in
/-- The body on whole staging memrefs, the input's at contents x0 and the output's at anything, runs to the
    continuation holding the input's as it was and the output's at out0_1 x0. -/
theorem sound_kernel0 (c : Dev nD) (E : Set ℕ) (i : grid0.Coords) (arg1 : Memref sig .tc .smem S4096 .i32) (harg1 : arg1.IsWhole)
    (arg2 : Memref sig .tc .vmem S1x4x128 .f32) (harg2 : arg2.IsWhole) (arg3 : Memref sig .tc .vmem S1x4x128 .f32) (harg3 : arg3.IsWhole)
    (x0 : Vec F S1x4x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The launch's proof data -/

/-- The proof data on core c: the arrays as the launch finds them; after the body at point t the input's buffer at
    its block and the output's at that block re-laid; the invariant the kernel's scratch and generator register beside the
    token table held whole; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => out0_1 (iblk0 V a c 0 t)
  Φ _ := iprop(Pipeline.ΦA spec0 c ∗ Pipeline.prefHeld (Ix := Unit) (Name := ℕ) (U := UR sig nD τ) (Lvl := ℕ) pre0 c (fun _ => fullShare) a.1)
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = out0_1 (iblk0 V a c 0 t) := by dsimp only [dat0]; try rfl

theorem before0_0 (c : Dev nD) (t : Fin (cfg0 a).N) (d) : (dat0 V a c).before 0 t d = iblk0 V a c 0 t :=
  before0_0_of V a (dat0 V a c) (A_eq0 V a c 0) (after0_0 V a c) t d

/-! ## The body obligation -/

/-- What the body is called with at point t, -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t))

/-- The body at any point: the input's memref holds its block, so the body's triple applies; the invariant and the
    core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0]
  rw [show (dat0 V a c).Φ t.succ = (dat0 V a c).Φ t.castSucc from rfl,
    show (dat0 V a c).owesAt () t.succ = (dat0 V a c).owesAt () t.castSucc from rfl,
    after0_0, after0_1]
  iintro ⟨HΦ, Ho, ⟨%d0, H0⟩, ⟨%d1, H1⟩⟩
  iapply (sound_kernel0 c Set.univ _ _ _ _ _ _ _ (iblk0 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V a c) (defs₀ (F := F)) Variants.none () Set.univ := fun t => by
  rw [bigSep_W0, bigSep_W0]
  exact sound_body0 V a c t

end Cert.Kernel.Frame

end
-- ==== Proof.KRegion1.lean ====
/-
  The second launch of the program: the span sum fused with the two additions. Grid point (b, q) stages the [256, 512]
  block of gathered token rows for batch entry b and positions 256·q … 256·q + 255, that batch entry's 512 span starts and
  512 span ends, the whole [512, 512] node table, and the matching block of position embeddings; the body builds the
  0/1 span indicator of the block's positions against the 512 spans, multiplies it into the node table in one matrix
  product, adds the token rows and then the position embeddings, and stores the block, which is written back to the
  result. Stated here at any contents V of the buffers when the launch is entered: each window's block at a point, what
  the body leaves in the output's staging buffer, the body's triple, the launch's proof data and its body obligation.
-/
import proofs.«400847_j31129922962205_2_alg».proof.Proof.Gen.Kernel.Launch
import proofs.«400847_j31129922962205_2_alg».proof.Proof.Gen.Kernel.Skeleton
import proofs.«400847_j31129922962205_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (where it is not
    fetched its block index has not moved since it was). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

/-- The rectangles the body touches: each staging buffer whole. -/
abbrev rX : Rect S1x256x512 := Rect.unit (s := S1x256x512) ![0, 0, 0] S1x256x512.size inb_S1x256x512_S1x256x512_0_0_0
abbrev rS : Rect S1x1x512 := Rect.unit (s := S1x1x512) ![0, 0, 0] S1x1x512.size inb_S1x1x512_S1x1x512_0_0_0
abbrev rN : Rect S512x512 := Rect.unit (s := S512x512) ![0, 0] S512x512.size inb_S512x512_S512x512_0_0

/-- The output's staging buffer after the body at grid coordinates i: its one store, of the fused value of the five
    loaded blocks (token rows x0, span starts x1, span ends x2, node table x3, position embeddings x4). -/
def out1_5 (i : grid1.Coords) (x0 : Vec F S1x256x512 .f32) (x1 x2 : Vec F S1x1x512 .i32) (x3 : Vec F S512x512 .f32) (x4 : Vec F S1x256x512 .f32) : Vec F S1x256x512 .f32 :=
  View.canon [⟨rX, k1_pay1 i (View.ld x1 rS) (View.ld x2 rS) (View.ld x3 rN) (View.ld x0 rX) (View.ld x4 rX)⟩]

/-- The store covers the buffer. -/
theorem cover1_5 (p0 : Vec F S1x256x512 .f32) (y : S1x256x512.Idx) :
    ∃ pc ∈ ([⟨rX, p0⟩] : List (View.Piece (Elt F) S1x256x512 .f32)), y ∈ pc.1.set :=
  View.cover_of_tiled [⟨rX, p0⟩] S1x256x512.size (by rfl) y

set_option maxHeartbeats 2000000 in
/-- The body on whole staging memrefs, the inputs' at contents x0 … x4 and the output's at anything, runs to the
    continuation holding the inputs' as they were and the output's at out1_5 of them. -/
theorem sound_kernel1 (c : Dev nD) (E : Set ℕ) (i : grid1.Coords)
    (arg2 : Memref sig .tc .vmem S1x256x512 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S512x512 .f32) (harg5 : arg5.IsWhole)
    (arg6 : Memref sig .tc .vmem S1x256x512 .f32) (harg6 : arg6.IsWhole) (arg7 : Memref sig .tc .vmem S1x256x512 .f32) (harg7 : arg7.IsWhole)
    (x0 : Vec F S1x256x512 .f32) (x1 x2 : Vec F S1x1x512 .i32) (x3 : Vec F S512x512 .f32) (x4 : Vec F S1x256x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 i x0 x1 x2 x3 x4)) -∗ K ⟨⟩))
      ⊢ wp frame (wpE (defs₀ (F := F)) Variants.none c none) E (cc1__fuse_kernel i arg2 harg2 arg3 harg3 arg4 harg4 arg5 harg5 arg6 harg6 arg7 harg7) K := by
  simp only [cc1__fuse_kernel_eq_skeleton]; unfold cc1__fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The launch's proof data -/

/-- The proof data on core c: the arrays as the launch finds them; after the body at point t each input's buffer at
    its block and the output's at the fused value of the five blocks; the invariant the kernel's scratch and generator
    register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (grid1.coords t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KRun.lean ====
/-
  The whole program as a run: two reshapes, the gather launch, four reshapes, the fused launch. The buffer contents at
  each boundary are a fold from the launch memory: a stretch of reshapes applies them; a launch leaves its output array
  at what its write-backs leave and every other buffer as it found it. The token table the gather launch prefetches is
  the reshaped token array as that launch finds it; the launch runs under the side condition that every block the
  table names lies inside the embedding table. Each launch is entered from "every unscoped buffer at the boundary's
  contents, the generator register at some state, nothing owed" and left at the next boundary's. The run ends with
  every unscoped buffer at the last boundary's contents; the frame claim reads the six arguments off that.
-/
import proofs.«400847_j31129922962205_2_alg».proof.Proof.KRegion0
import proofs.«400847_j31129922962205_2_alg».proof.Proof.KRegion1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents up to the gather launch, and the token table -/

/-- Core c's buffers at launch. -/
abbrev W0 : Dev nD → Valuation τ sig (Elt F) := fun c b => (s₀ m ρ).mem ((c : Dev nD), b)
/-- After the first two reshapes (the gather launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The token table's contents when the gather launch is entered (there is one device). -/
def tbl : pre0.Contents (Elt F) := fun j => V1 m ρ (0 : Dev nD) (pre0.ref j)
theorem V_pre (c : Dev nD) (j : Fin 1) : V1 m ρ c (pre0.ref j) = tbl m ρ j := by
  obtain rfl : c = 0 := Subsingleton.elim _ _; rfl
/-- The gather launch's side condition of the token table: every row it names lies inside the embedding table. -/
abbrev Ok : Prop := ok0 (F := F) (tbl m ρ)

variable (hO : Ok m ρ)

/-- The admissible table contents of each launch: the token table for the gather, none for the fused launch. -/
def adm : (p : Fin 2) → (pcfgs (F := F) p).Adm
  | ⟨0, _⟩ => ⟨tbl m ρ, hO⟩
  | ⟨1, _⟩ => cfg1.toPCfg_adm

/-! ## The contents after the gather launch and on to the end -/

/-- At the gather launch's exit: its arrays at what the pipeline leaves, every other buffer as entered. -/
def W2 (c : Dev nD) : Valuation τ sig (Elt F) :=
  Pipeline.withArrays spec0 c (W1 m ρ c) fun w => (dat0 (V1 m ρ) (adm m ρ hO 0) c).arrAt w (cfg0 (adm m ρ hO 0)).N
theorem W2_arr (c : Dev nD) (w : Fin (cfg0 (adm m ρ hO 0)).W) :
    W2 m ρ hO c (Proc.devRef .tc (Pipeline.arrRef spec0 w)) = (dat0 (V1 m ρ) (adm m ρ hO 0) c).arrAt w (cfg0 (adm m ρ hO 0)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ hO c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hO c b
theorem hF0 (c : Dev nD) (w : Fin (cfg0 (adm m ρ hO 0)).W) : (dat0 (V1 m ρ) (adm m ρ hO 0) c).arrAt w (cfg0 (adm m ρ hO 0)).N = V2 m ρ hO c (Pipeline.arrRef spec0 w) :=
  (W2_arr m ρ hO c w).symm
theorem hrest0 (c : Dev nD) : ∀ b, b ∉ Finset.univ.image (Pipeline.arrRef spec0) → V2 m ρ hO c b = V1 m ρ c b :=
  fun b hb => W2_of_ne m ρ hO c b fun w e => hb (Finset.mem_image.mpr ⟨w, Finset.mem_univ _, e⟩)

/-- After the four reshapes (the fused launch's entry). -/
abbrev W3 : Dev nD → Valuation τ sig (Elt F) := fun c => StableHlo.after hostOps1 (W2 m ρ hO c)
abbrev V3 : (c : Dev nD) → (b : Ref sig .tc) → Buf (Elt F) ((c : Thread nD τ).loc b) := fun c b => W3 m ρ hO c b
/-- At the fused launch's exit. -/
def W4 (c : Dev nD) : Valuation τ sig (Elt F) :=
  Pipeline.withArrays spec1 c (W3 m ρ hO c) fun w => (dat1 (V3 m ρ hO) c).arrAt w cfg1.N
theorem W4_arr (c : Dev nD) (w : Fin cfg1.W) :
    W4 m ρ hO c (Proc.devRef .tc (Pipeline.arrRef spec1 w)) = (dat1 (V3 m ρ hO) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev V4 : (c : Dev nD) → (b : Ref sig .tc) → Buf (Elt F) ((c : Thread nD τ).loc b) := fun c b => W4 m ρ hO c b
theorem hF1 (c : Dev nD) (w : Fin cfg1.W) : (dat1 (V3 m ρ hO) c).arrAt w cfg1.N = V4 m ρ hO c (Pipeline.arrRef spec1 w) :=
  (W4_arr m ρ hO c w).symm
theorem hrest1 (c : Dev nD) : ∀ b, b ∉ Finset.univ.image (Pipeline.arrRef spec1) → V4 m ρ hO c b = V3 m ρ hO c b :=
  fun b hb => W4_of_ne m ρ hO c b fun w e => hb (Finset.mem_image.mpr ⟨w, Finset.mem_univ _, e⟩)

/-! ## The proof data family and the thread state -/

/-- Each launch's proof data at its entry contents. -/
def pdats : (p : Fin 2) → (c : Dev nD) → Dat τ (Elt F) Unit ℕ (UR sig nD τ) ℕ (Pipeline.pin (pcfgs (F := F)) (adm m ρ hO) p) c
  | ⟨0, _⟩ => fun c => dat0 (V1 m ρ) (adm m ρ hO 0) c
  | ⟨1, _⟩ => fun c => dat1 (V3 m ρ hO) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ hO c) ∗ ∃ r, prngReg c r)

/-! ## The launches as segments -/

set_option backward.isDefEq.respectTransparency.types false in
/-- The unscoped buffers that are no array of the gather launch are the token table, held whole at its contents,
    and the rest. -/
theorem rest0_split (c : Dev nD) :
    (Pipeline.unscopedRest (Ix := Unit) (Name := ℕ) (U := UR sig nD τ) (Lvl := ℕ) spec0 c (V1 m ρ c) : sProp 𝕄)
      = iprop(Pipeline.prefHeld (Ix := Unit) (Name := ℕ) (U := UR sig nD τ) (Lvl := ℕ) pre0 c (fun _ => fullShare) (tbl m ρ)
          ∗ Pipeline.unscopedRestP (Ix := Unit) (Name := ℕ) (U := UR sig nD τ) (Lvl := ℕ) pre0 spec0 c (V1 m ρ c)) := by
  have h := Pipeline.unscopedRest_split (Ix := Unit) (Name := ℕ) (U := UR sig nD τ) (Lvl := ℕ) (preFacts0) c (V1 m ρ c)
  rw [show (fun k => V1 m ρ c (pre0.ref k)) = tbl m ρ from funext (V_pre m ρ c)] at h
  exact h

set_option backward.isDefEq.respectTransparency.types false in
/-- The gather launch over the thread state: entered from every unscoped buffer at W1, left at W2. Its arrays and
    the token table split out of the unscoped buffers and put back at the exit; the generator register and the table
    into the invariant and out; nothing owed; no semaphore of the kernel's own. -/
def reg0 : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) (adm m ρ hO 0) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m ρ))
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) (adm m ρ hO) (pdats m ρ hO) (launch0 (F := F)).win (launch0 (F := F)).arr_whole c
      ((pdats m ρ hO 0 c).share_full fun _ => rfl) (V1 m ρ c) fun _ => rfl
    rw [Pipeline.unscopedBufs_held] at hsplit
    have hsp := Entails.of_eq (rest0_split m ρ c)
    iintro ⟨⟨Hub, Hp, HO⟩, -, -⟩
    ihave H := hsplit $$ Hub
    icases H with ⟨Ha, Hrest⟩
    ihave H2 := hsp $$ Hrest
    icases H2 with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ Pipeline.prefHeld (Ix := Unit) (Name := ℕ) (U := UR sig nD τ) (Lvl := ℕ) pre0 c (fun _ => fullShare) (tbl m ρ)) from rfl]; unfold Pipeline.ΦA
    iintro ⟨Hp, Ht, Hr⟩
    isplitr [Ht]
    · isplitl [Hr]; · iexact Hr
      iexact Hp
    iexact Ht
  hout c := by
    rw [Pipeline.ownSems0_none, show (pdats m ρ hO 0 c).Φ (Fin.last _) = iprop(Pipeline.ΦA spec0 c ∗ Pipeline.prefHeld (Ix := Unit) (Name := ℕ) (U := UR sig nD τ) (Lvl := ℕ) pre0 c (fun _ => fullShare) (tbl m ρ)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V1 m ρ c) (V2 m ρ hO c) ((pdats m ρ hO 0 c).arrAt · (cfg0 (adm m ρ hO 0)).N) (hF0 m ρ hO c) (hrest0 m ρ hO c)
    rw [Pipeline.unscopedBufs_held] at hjoin
    have hsp := Entails.of_eq (rest0_split m ρ c).symm
    iintro ⟨Ha, HO, ⟨HY, Ht⟩, Hrest⟩
    ihave Hr := hsp $$ [Ht Hrest]
    · isplitl [Ht]; · iexact Ht
      iexact Hrest
    imodintro
    isplitl [Ha Hr]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused launch over the thread state: entered from every unscoped buffer at W3, left at W4. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(Tₙ m ρ hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ hO c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V3 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V3 m ρ hO c) (V4 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program's four segments in order. -/
abbrev segs : List (Pipeline.Seg (pcfgs (F := F)) (adm m ρ hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ hO)),
    .region (reg1 m ρ hO) ]
/-- The program is the run of the segments. -/
theorem main_run (c : Dev nD) : main (F := F) c = Pipeline.Seg.run (segs m ρ hO) := (main_chain c).trans (by chain_rfl)

set_option backward.isDefEq.respectTransparency.types false in
/-- THE RUN. Under the gather launch's side condition, from any memory with zero counters, every weakly fair
    execution of the program terminates, nothing faulting, and in every final state each unscoped buffer holds the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO))) (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hO c) s')
      isplitl [Hh] <;> iassumption)
    (hQ := fun s h c => h c)

/-- info: 'Cert.Kernel.Frame.run_all' depends on axioms: [propext, Classical.choice, Quot.sound] -/
#guard_msgs in #print axioms run_all

end Cert.Kernel.Frame

end
-- ==== Proof.PreRange.lean ====
/-
  The certificate's precondition, read back: when the printed predicate `finite_inputs` is all ones, every token of the
  [4, 1024] index array lies in [0, 32000) — the conjunct `jnp.all((tokens >= 0) & (tokens < 32000))` — and a table
  whose every word is in that range names, at every grid point, a [1, 4, 128] block inside the [32000, 4, 128] array:
  the side condition the gather pipeline asks of the prefetched table it reads its block index from. The second
  statement is made of the ideal program and of the word-level program alike; the table's contents stay a variable.
-/
import proofs.«400847_j31129922962205_2_alg».proof.Pre_finite_inputs
import proofs.«400847_j31129922962205_2_alg».proof.KernelIdeal
import proofs.«400847_j31129922962205_2_alg».proof.Kernel
import Idealize.ShloMosaic.Lib.ReduceAll
import Idealize.ShloMosaic.Lib.ValueIdx

noncomputable section

namespace Cert.PreRange

open Idealize.ShloMosaic

/-- The scalar shape has one index. -/
instance subsingleton_S_ : Subsingleton Cert.Pre_finite_inputs.S_.Idx := ⟨fun a b => funext fun d => d.elim0⟩

/-- A word that tests ≥ 0 and < 32000 signed is below 32000 unsigned. -/
theorem toNat_lt_of_cmp (w : BitVec 32) (h0 : IntOp.cmpi .sge w (0#32) = 1#1) (h1 : IntOp.cmpi .slt w (32000#32) = 1#1) :
    w.toNat < 32000 := by
  rw [IntOp.cmpi_sge, show (0#32 : BitVec 32).toInt = 0 from by decide] at h0
  rw [IntOp.cmpi_slt, show (32000#32 : BitVec 32).toInt = 32000 from by decide] at h1
  have h32 := w.isLt
  unfold BitVec.toInt at h0 h1
  split at h1 <;> omega

/-- The precondition gives the token range: every word of the token array is below 32000. -/
theorem tok_lt_of_pre {F : FTy → Type} [FloatOps F] [Cert.Pre_finite_inputs.Facts]
    (a0 : IVec Cert.Pre_finite_inputs.S4x1024 32) (a1 a2 : IVec Cert.Pre_finite_inputs.S4x512 32)
    (a3 : FVec F Cert.Pre_finite_inputs.S32000x512 .f32) (a4 : FVec F Cert.Pre_finite_inputs.S512x512 .f32)
    (a5 : FVec F Cert.Pre_finite_inputs.S1x1024x512 .f32)
    (h : Cert.Pre_finite_inputs.fn (F := F) a0 a1 a2 a3 a4 a5 = fun _ => 1#1) : ∀ i, (a0 i).toNat < 32000 := by
  intro i
  have e := congrFun h ValueIdx.ix0
  unfold Cert.Pre_finite_inputs.fn Cert.Pre_finite_inputs.fn_part1 at e
  dsimp only at e
  have e2 : Host.reduce IntOp.andi _ _ _ _ ValueIdx.ix0 = 1#1 := (IntOp.andi_eq_one.1 e).2
  have e3 := Host.reduce_andi_all _ _ _ _ _ e2 i
  obtain ⟨g0, g1⟩ := IntOp.andi_eq_one.1 e3
  exact toNat_lt_of_cmp _ g0 g1

end Cert.PreRange

namespace Cert.KernelIdeal.OkOfRange

open Cert.KernelIdeal Cert.KernelIdeal.Facts₀ Cert.KernelIdeal.Facts
open Idealize.ShloMosaic Idealize.ShloMosaic.TcCoe

variable {F : FTy → Type} [FloatOps F]
variable [Cert.KernelIdeal.Facts]

/-- A block index whose first coordinate is a word below 32000 and whose other two are 0 names a [1, 4, 128] block
    inside the [32000, 4, 128] table (the ideal program's shapes). -/
theorem row_inb (w : BitVec 32) (hw : w.toNat < 32000) :
    ∀ a, ((![w.toNat, (0#32 : BitVec 32).toNat, (0#32 : BitVec 32).toNat] : Fin 3 → Nat) a + 1) * S1x4x128.size a ≤ S32000x4x128.size a := by
  intro a
  fin_cases a
  · show (w.toNat + 1) * 1 ≤ 32000
    omega
  · show (0 + 1) * 4 ≤ 4
    omega
  · show (0 + 1) * 128 ≤ 128
    omega

/-- When every word of the prefetched table is below 32000, the gather pipeline's side condition holds: at each grid
    point the index map returns (the table's word at that point, 0, 0), the word is a row of the table, and a 32-bit
    element type makes the transfer's ends word-exact. -/
theorem ok0_of_lt (pf : pre0.Contents (Elt F)) (h : ∀ k : S4096.Idx, (pf 0 k).toNat < 32000) : ok0 (F := F) pf :=
  fun i => ⟨row_inb _ (h _), Or.inl rfl⟩

end Cert.KernelIdeal.OkOfRange

namespace Cert.Kernel.OkOfRange

open Cert.Kernel Cert.Kernel.Facts₀ Cert.Kernel.Facts
open Idealize.ShloMosaic Idealize.ShloMosaic.TcCoe

variable {F : FTy → Type} [FloatOps F]
variable [Cert.Kernel.Facts]

/-- A block index whose first coordinate is a word below 32000 and whose other two are 0 names a [1, 4, 128] block
    inside the [32000, 4, 128] table (the word-level program's shapes). -/
theorem row_inb (w : BitVec 32) (hw : w.toNat < 32000) :
    ∀ a, ((![w.toNat, (0#32 : BitVec 32).toNat, (0#32 : BitVec 32).toNat] : Fin 3 → Nat) a + 1) * S1x4x128.size a ≤ S32000x4x128.size a := by
  intro a
  fin_cases a
  · show (w.toNat + 1) * 1 ≤ 32000
    omega
  · show (0 + 1) * 4 ≤ 4
    omega
  · show (0 + 1) * 128 ≤ 128
    omega

/-- When every word of the prefetched table is below 32000, the gather pipeline's side condition holds: at each grid
    point the index map returns (the table's word at that point, 0, 0), the word is a row of the table, and a 32-bit
    element type makes the transfer's ends word-exact. -/
theorem ok0_of_lt (pf : pre0.Contents (Elt F)) (h : ∀ k : S4096.Idx, (pf 0 k).toNat < 32000) : ok0 (F := F) pf :=
  fun i => ⟨row_inb _ (h _), Or.inl rfl⟩

end Cert.Kernel.OkOfRange

end
-- ==== Proof.KFrame.lean ====
/-
  The program's frame claim, and its result array named. The gather launch's side condition holds as soon as every
  token word, read unsigned, is below 32000: the token table is the token array re-laid as [4096], so each of its words
  is a token. Each of the six arguments is read back through the fold of buffer contents to its launch contents: no
  reshape writes an argument, and a launch changes only its output array. The result array is the fused launch's output
  after its sixteen write-backs.
-/
import proofs.«400847_j31129922962205_2_alg».proof.Proof.KRun
import proofs.«400847_j31129922962205_2_alg».proof.Proof.Gen.Kernel.Regions
import proofs.«400847_j31129922962205_2_alg».proof.Proof.PreRange
import Idealize.ShloMosaic.Lib.StableHlo.Run

set_option maxRecDepth 16384

noncomputable section

namespace Cert.Kernel.Frame

open Cert.Kernel Cert.Kernel.Gen
open Idealize.ShloMosaic Idealize.ShloMosaic.TcCoe Idealize.ShloMosaic.Tactic Idealize.ShloMosaic.StableHlo
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The token table, and the side condition from the token range -/

/-- The token table as the gather launch finds it: the token array re-laid as [4096]. -/
theorem V1_main_v0 (c : Dev nD) : V1 m ρ c main_v0 = shapeCast S4096 (m ((c : Thread nD τ).loc main_arg0)) shapeCasts_S4x1024_S4096 := by
  dsimp only [V1, W1, W0, hostOps0]
  after_results
  rfl

/-- Every token below 32000 (unsigned): every row the table names lies inside the embedding table. -/
theorem ok_of_lt (h : ∀ (c : Dev nD) (i : S4x1024.Idx), ((m ((c : Thread nD τ).loc main_arg0) : S4x1024.Idx → BitVec 32) i).toNat < 32000) : Ok m ρ :=
  Cert.Kernel.OkOfRange.ok0_of_lt (tbl m ρ) (fun k => by
    have e : (tbl m ρ 0 : S4096.Idx → BitVec 32) = shapeCast S4096 (m (((0 : Dev nD) : Thread nD τ).loc main_arg0)) shapeCasts_S4x1024_S4096 := V1_main_v0 m ρ 0
    rw [e]
    exact h 0 _)

variable (hO : Ok m ρ)

/-! ## The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ hO c (Proc.devRef .tc r) = W2 m ρ hO c (Proc.devRef .tc r) :=
  StableHlo.after_of_writes_sub hostOps1 _ hostOps1_writes h

theorem W4_main_arg0 (c : Dev nD) : W4 m ρ hO c (Proc.devRef .tc main_arg0) = m ((c : Thread nD τ).loc main_arg0) :=
  calc W4 m ρ hO c (Proc.devRef .tc main_arg0)
    _ = W3 m ρ hO c (Proc.devRef .tc main_arg0) := W4_of_ne m ρ hO c main_arg0 (by decide)
    _ = W2 m ρ hO c (Proc.devRef .tc main_arg0) := W3_of m ρ hO c main_arg0 (by decide)
    _ = W1 m ρ c (Proc.devRef .tc main_arg0) := W2_of_ne m ρ hO c main_arg0 (by decide)
    _ = W0 m ρ c (Proc.devRef .tc main_arg0) := W1_of m ρ c main_arg0 (by decide)
    _ = m ((c : Thread nD τ).loc main_arg0) := rfl
theorem W4_main_arg1 (c : Dev nD) : W4 m ρ hO c (Proc.devRef .tc main_arg1) = m ((c : Thread nD τ).loc main_arg1) :=
  calc W4 m ρ hO c (Proc.devRef .tc main_arg1)
    _ = W3 m ρ hO c (Proc.devRef .tc main_arg1) := W4_of_ne m ρ hO c main_arg1 (by decide)
    _ = W2 m ρ hO c (Proc.devRef .tc main_arg1) := W3_of m ρ hO c main_arg1 (by decide)
    _ = W1 m ρ c (Proc.devRef .tc main_arg1) := W2_of_ne m ρ hO c main_arg1 (by decide)
    _ = W0 m ρ c (Proc.devRef .tc main_arg1) := W1_of m ρ c main_arg1 (by decide)
    _ = m ((c : Thread nD τ).loc main_arg1) := rfl
theorem W4_main_arg2 (c : Dev nD) : W4 m ρ hO c (Proc.devRef .tc main_arg2) = m ((c : Thread nD τ).loc main_arg2) :=
  calc W4 m ρ hO c (Proc.devRef .tc main_arg2)
    _ = W3 m ρ hO c (Proc.devRef .tc main_arg2) := W4_of_ne m ρ hO c main_arg2 (by decide)
    _ = W2 m ρ hO c (Proc.devRef .tc main_arg2) := W3_of m ρ hO c main_arg2 (by decide)
    _ = W1 m ρ c (Proc.devRef .tc main_arg2) := W2_of_ne m ρ hO c main_arg2 (by decide)
    _ = W0 m ρ c (Proc.devRef .tc main_arg2) := W1_of m ρ c main_arg2 (by decide)
    _ = m ((c : Thread nD τ).loc main_arg2) := rfl
theorem W4_main_arg3 (c : Dev nD) : W4 m ρ hO c (Proc.devRef .tc main_arg3) = m ((c : Thread nD τ).loc main_arg3) :=
  calc W4 m ρ hO c (Proc.devRef .tc main_arg3)
    _ = W3 m ρ hO c (Proc.devRef .tc main_arg3) := W4_of_ne m ρ hO c main_arg3 (by decide)
    _ = W2 m ρ hO c (Proc.devRef .tc main_arg3) := W3_of m ρ hO c main_arg3 (by decide)
    _ = W1 m ρ c (Proc.devRef .tc main_arg3) := W2_of_ne m ρ hO c main_arg3 (by decide)
    _ = W0 m ρ c (Proc.devRef .tc main_arg3) := W1_of m ρ c main_arg3 (by decide)
    _ = m ((c : Thread nD τ).loc main_arg3) := rfl
theorem V3_main_arg4 (c : Dev nD) : V3 m ρ hO c main_arg4 = m ((c : Thread nD τ).loc main_arg4) :=
  calc W3 m ρ hO c (Proc.devRef .tc main_arg4)
    _ = W2 m ρ hO c (Proc.devRef .tc main_arg4) := W3_of m ρ hO c main_arg4 (by decide)
    _ = W1 m ρ c (Proc.devRef .tc main_arg4) := W2_of_ne m ρ hO c main_arg4 (by decide)
    _ = W0 m ρ c (Proc.devRef .tc main_arg4) := W1_of m ρ c main_arg4 (by decide)
    _ = m ((c : Thread nD τ).loc main_arg4) := rfl
theorem W4_main_arg4 (c : Dev nD) : W4 m ρ hO c (Proc.devRef .tc main_arg4) = m ((c : Thread nD τ).loc main_arg4) :=
  (W4_arr m ρ hO c 3).trans ((((dat1 (V3 m ρ hO) c).arrAt_in 3 rfl _).trans (A_eq1 (V3 m ρ hO) c 3)).trans (V3_main_arg4 m ρ hO c))
theorem V3_main_arg5 (c : Dev nD) : V3 m ρ hO c main_arg5 = m ((c : Thread nD τ).loc main_arg5) :=
  calc W3 m ρ hO c (Proc.devRef .tc main_arg5)
    _ = W2 m ρ hO c (Proc.devRef .tc main_arg5) := W3_of m ρ hO c main_arg5 (by decide)
    _ = W1 m ρ c (Proc.devRef .tc main_arg5) := W2_of_ne m ρ hO c main_arg5 (by decide)
    _ = W0 m ρ c (Proc.devRef .tc main_arg5) := W1_of m ρ c main_arg5 (by decide)
    _ = m ((c : Thread nD τ).loc main_arg5) := rfl
theorem W4_main_arg5 (c : Dev nD) : W4 m ρ hO c (Proc.devRef .tc main_arg5) = m ((c : Thread nD τ).loc main_arg5) :=
  (W4_arr m ρ hO c 4).trans ((((dat1 (V3 m ρ hO) c).arrAt_in 4 rfl _).trans (A_eq1 (V3 m ρ hO) c 4)).trans (V3_main_arg5 m ρ hO c))

/-! ## The frame claim and the result -/

/-- THE FRAME, with the result array named: under the gather launch's side condition every weakly fair execution
    terminates, nothing faulting, the result array ends at the fused launch's output after its last write-back, and
    the six arguments end as launched. -/
theorem run_result : θ_run defs (onTc (τ := τ) (main (F := F))) ⟨m, fun _ => 0, ρ⟩ (fun r => ∀ c : Dev nD,
      r.2.mem ((c.tc : Thread nD τ).loc main_v7) = (dat1 (V3 m ρ hO) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v7 (by decide))).trans (W4_arr m ρ hO c 5),
     (h c _ (mem_uc main_arg0 (by decide))).trans (W4_main_arg0 m ρ hO c),
     (h c _ (mem_uc main_arg1 (by decide))).trans (W4_main_arg1 m ρ hO c),
     (h c _ (mem_uc main_arg2 (by decide))).trans (W4_main_arg2 m ρ hO c),
     (h c _ (mem_uc main_arg3 (by decide))).trans (W4_main_arg3 m ρ hO c),
     (h c _ (mem_uc main_arg4 (by decide))).trans (W4_main_arg4 m ρ hO c),
     (h c _ (mem_uc main_arg5 (by decide))).trans (W4_main_arg5 m ρ hO c)⟩) (run_all m ρ hO)

/-- The frame claim alone. -/
theorem frame (hO : Ok m ρ) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_result m ρ hO)

end Cert.Kernel.Frame

end
-- ==== Proof.KIRegion0.lean ====
/-
  The first launch of the program: the row gather. Grid point t fetches, as its one input block, the row of the
  reshaped table [32000, 4, 128] that word t of the prefetched token table names, and the body copies that block
  into the output block, which is written back to row t of the [4096, 4, 128] result. Stated here, at any contents V
  of the buffers when the launch is entered and any admissible contents a of the token table: each window's block at a
  point, what the body leaves in the output's staging buffer (the loaded block, re-laid by an identity cast), the body's
  triple, the launch's proof data and its body obligation. The token table rides through the launch untouched, held
  whole beside the kernel's scratch in the invariant.
-/
import proofs.«400847_j31129922962205_2_alg».proof.Proof.Gen.KernelIdeal.Launch
import proofs.«400847_j31129922962205_2_alg».proof.Proof.Gen.KernelIdeal.Skeleton
import proofs.«400847_j31129922962205_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg0 (F := F)).Adm)

/-! ## The windows' blocks -/

/-- Window w's block at point t, read off its array as the launch finds it. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The input window's current staging buffer holds its block at every point, fetched there or not. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

/-- The one rectangle the body touches: the whole [1, 4, 128] block. -/
abbrev r0 : Rect S1x4x128 := Rect.unit (s := S1x4x128) ![0, 0, 0] S1x4x128.size inb_S1x4x128_S1x4x128_0_0_0

/-- The output's staging buffer after the body: its one store, of the loaded input block. -/
def out0_1 (x0 : Vec F S1x4x128 .f32) : Vec F S1x4x128 .f32 :=
  View.canon [⟨r0, k0_pay1 (View.ld x0 r0)⟩]

/-- The store covers the buffer. -/
theorem cover0_1 (p0 : Vec F S1x4x128 .f32) (y : S1x4x128.Idx) :
    ∃ pc ∈ ([⟨r0, p0⟩] : List (View.Piece (Elt F) S1x4x128 .f32)), y ∈ pc.1.set :=
  View.cover_of_tiled [⟨r0, p0⟩] S1x4x128.size (by rfl) y

/-- Each window's current staging memref at point t. -/
abbrev st0_0 (t : Fin (cfg0 a).N) := ((cfg0 a).win 0).stage ((cfg0 a).slots t 0)
abbrev st0_1 (t : Fin (cfg0 a).N) := ((cfg0 a).win 1).stage ((cfg0 a).slots t 1)

/-- The body at point t, on what the pipeline calls it with. -/
abbrev bodyAt0 (t : Fin (cfg0 a).N) : Prog (TpuEff nD τ sig (Elt F) Λ₀ .tc) PUnit :=
  cc0__gather_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1))

set_option maxHeartbeats 1000000 in
/-- The body on whole staging memrefs, the input's at contents x0 and the output's at anything, runs to the
    continuation holding the input's as it was and the output's at out0_1 x0. -/
theorem sound_kernel0 (c : Dev nD) (E : Set ℕ) (i : grid0.Coords) (arg1 : Memref sig .tc .smem S4096 .i32) (harg1 : arg1.IsWhole)
    (arg2 : Memref sig .tc .vmem S1x4x128 .f32) (harg2 : arg2.IsWhole) (arg3 : Memref sig .tc .vmem S1x4x128 .f32) (harg3 : arg3.IsWhole)
    (x0 : Vec F S1x4x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__gather_kernel i arg1 harg1 arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The launch's proof data -/

/-- The proof data on core c: the arrays as the launch finds them; after the body at point t the input's buffer at
    its block and the output's at that block re-laid; the invariant the kernel's scratch and generator register beside the
    token table held whole; nothing owed; full shares. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => out0_1 (iblk0 V a c 0 t)
  Φ _ := iprop(Pipeline.ΦA spec0 c ∗ Pipeline.prefHeld (Ix := Unit) (Name := ℕ) (U := UR sig nD τ) (Lvl := ℕ) pre0 c (fun _ => fullShare) a.1)
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = out0_1 (iblk0 V a c 0 t) := by dsimp only [dat0]; try rfl

theorem before0_0 (c : Dev nD) (t : Fin (cfg0 a).N) (d) : (dat0 V a c).before 0 t d = iblk0 V a c 0 t :=
  before0_0_of V a (dat0 V a c) (A_eq0 V a c 0) (after0_0 V a c) t d

/-! ## The body obligation -/

/-- What the body is called with at point t, -/
def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d)))

/-- and what it returns. -/
def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t))

/-- The body at any point: the input's memref holds its block, so the body's triple applies; the invariant and the
    core's dues pass through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0]
  rw [show (dat0 V a c).Φ t.succ = (dat0 V a c).Φ t.castSucc from rfl,
    show (dat0 V a c).owesAt () t.succ = (dat0 V a c).owesAt () t.castSucc from rfl,
    after0_0, after0_1]
  iintro ⟨HΦ, Ho, ⟨%d0, H0⟩, ⟨%d1, H1⟩⟩
  iapply (sound_kernel0 c Set.univ _ _ _ _ _ _ _ (iblk0 V a c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V a c) (defs₀ (F := F)) Variants.none () Set.univ := fun t => by
  rw [bigSep_W0, bigSep_W0]
  exact sound_body0 V a c t

end Cert.KernelIdeal.Frame

end
-- ==== Proof.KIRegion1.lean ====
/-
  The second launch of the program: the span sum fused with the two additions. Grid point (b, q) stages the [256, 512]
  block of gathered token rows for batch entry b and positions 256·q … 256·q + 255, that batch entry's 512 span starts and
  512 span ends, the whole [512, 512] node table, and the matching block of position embeddings; the body builds the
  0/1 span indicator of the block's positions against the 512 spans, multiplies it into the node table in one matrix
  product, adds the token rows and then the position embeddings, and stores the block, which is written back to the
  result. Stated here at any contents V of the buffers when the launch is entered: each window's block at a point, what
  the body leaves in the output's staging buffer, the body's triple, the launch's proof data and its body obligation.
-/
import proofs.«400847_j31129922962205_2_alg».proof.Proof.Gen.KernelIdeal.Launch
import proofs.«400847_j31129922962205_2_alg».proof.Proof.Gen.KernelIdeal.Skeleton
import proofs.«400847_j31129922962205_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (where it is not
    fetched its block index has not moved since it was). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

/-- The rectangles the body touches: each staging buffer whole. -/
abbrev rX : Rect S1x256x512 := Rect.unit (s := S1x256x512) ![0, 0, 0] S1x256x512.size inb_S1x256x512_S1x256x512_0_0_0
abbrev rS : Rect S1x1x512 := Rect.unit (s := S1x1x512) ![0, 0, 0] S1x1x512.size inb_S1x1x512_S1x1x512_0_0_0
abbrev rN : Rect S512x512 := Rect.unit (s := S512x512) ![0, 0] S512x512.size inb_S512x512_S512x512_0_0

/-- The output's staging buffer after the body at grid coordinates i: its one store, of the fused value of the five
    loaded blocks (token rows x0, span starts x1, span ends x2, node table x3, position embeddings x4). -/
def out1_5 (i : grid1.Coords) (x0 : Vec F S1x256x512 .f32) (x1 x2 : Vec F S1x1x512 .i32) (x3 : Vec F S512x512 .f32) (x4 : Vec F S1x256x512 .f32) : Vec F S1x256x512 .f32 :=
  View.canon [⟨rX, k1_pay1 i (View.ld x1 rS) (View.ld x2 rS) (View.ld x3 rN) (View.ld x0 rX) (View.ld x4 rX)⟩]

/-- The store covers the buffer. -/
theorem cover1_5 (p0 : Vec F S1x256x512 .f32) (y : S1x256x512.Idx) :
    ∃ pc ∈ ([⟨rX, p0⟩] : List (View.Piece (Elt F) S1x256x512 .f32)), y ∈ pc.1.set :=
  View.cover_of_tiled [⟨rX, p0⟩] S1x256x512.size (by rfl) y

set_option maxHeartbeats 2000000 in
/-- The body on whole staging memrefs, the inputs' at contents x0 … x4 and the output's at anything, runs to the
    continuation holding the inputs' as they were and the output's at out1_5 of them. -/
theorem sound_kernel1 (c : Dev nD) (E : Set ℕ) (i : grid1.Coords)
    (arg2 : Memref sig .tc .vmem S1x256x512 .f32) (harg2 : arg2.IsWhole) (arg3 : Memref sig .tc .vmem S1x1x512 .i32) (harg3 : arg3.IsWhole)
    (arg4 : Memref sig .tc .vmem S1x1x512 .i32) (harg4 : arg4.IsWhole) (arg5 : Memref sig .tc .vmem S512x512 .f32) (harg5 : arg5.IsWhole)
    (arg6 : Memref sig .tc .vmem S1x256x512 .f32) (harg6 : arg6.IsWhole) (arg7 : Memref sig .tc .vmem S1x256x512 .f32) (harg7 : arg7.IsWhole)
    (x0 : Vec F S1x256x512 .f32) (x1 x2 : Vec F S1x1x512 .i32) (x3 : Vec F S512x512 .f32) (x4 : Vec F S1x256x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 i x0 x1 x2 x3 x4)) -∗ K ⟨⟩))
      ⊢ wp frame (wpE (defs₀ (F := F)) Variants.none c none) E (cc1__fuse_kernel i arg2 harg2 arg3 harg3 arg4 harg4 arg5 harg5 arg6 harg6 arg7 harg7) K := by
  simp only [cc1__fuse_kernel_eq_skeleton]; unfold cc1__fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The launch's proof data -/

/-- The proof data on core c: the arrays as the launch finds them; after the body at point t each input's buffer at
    its block and the output's at the fused value of the five blocks; the invariant the kernel's scratch and generator
    register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (grid1.coords t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KIRun.lean ====
/-
  The whole program as a run: two reshapes, the gather launch, four reshapes, the fused launch. The buffer contents at
  each boundary are a fold from the launch memory: a stretch of reshapes applies them; a launch leaves its output array
  at what its write-backs leave and every other buffer as it found it. The token table the gather launch prefetches is
  the reshaped token array as that launch finds it; the launch runs under the side condition that every block the
  table names lies inside the embedding table. Each launch is entered from "every unscoped buffer at the boundary's
  contents, the generator register at some state, nothing owed" and left at the next boundary's. The run ends with
  every unscoped buffer at the last boundary's contents; the frame claim reads the six arguments off that.
-/
import proofs.«400847_j31129922962205_2_alg».proof.Proof.KIRegion0
import proofs.«400847_j31129922962205_2_alg».proof.Proof.KIRegion1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents up to the gather launch, and the token table -/

/-- Core c's buffers at launch. -/
abbrev W0 : Dev nD → Valuation τ sig (Elt F) := fun c b => (s₀ m ρ).mem ((c : Dev nD), b)
/-- After the first two reshapes (the gather launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The token table's contents when the gather launch is entered (there is one device). -/
def tbl : pre0.Contents (Elt F) := fun j => V1 m ρ (0 : Dev nD) (pre0.ref j)
theorem V_pre (c : Dev nD) (j : Fin 1) : V1 m ρ c (pre0.ref j) = tbl m ρ j := by
  obtain rfl : c = 0 := Subsingleton.elim _ _; rfl
/-- The gather launch's side condition of the token table: every row it names lies inside the embedding table. -/
abbrev Ok : Prop := ok0 (F := F) (tbl m ρ)

variable (hO : Ok m ρ)

/-- The admissible table contents of each launch: the token table for the gather, none for the fused launch. -/
def adm : (p : Fin 2) → (pcfgs (F := F) p).Adm
  | ⟨0, _⟩ => ⟨tbl m ρ, hO⟩
  | ⟨1, _⟩ => cfg1.toPCfg_adm

/-! ## The contents after the gather launch and on to the end -/

/-- At the gather launch's exit: its arrays at what the pipeline leaves, every other buffer as entered. -/
def W2 (c : Dev nD) : Valuation τ sig (Elt F) :=
  Pipeline.withArrays spec0 c (W1 m ρ c) fun w => (dat0 (V1 m ρ) (adm m ρ hO 0) c).arrAt w (cfg0 (adm m ρ hO 0)).N
theorem W2_arr (c : Dev nD) (w : Fin (cfg0 (adm m ρ hO 0)).W) :
    W2 m ρ hO c (Proc.devRef .tc (Pipeline.arrRef spec0 w)) = (dat0 (V1 m ρ) (adm m ρ hO 0) c).arrAt w (cfg0 (adm m ρ hO 0)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ hO c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hO c b
theorem hF0 (c : Dev nD) (w : Fin (cfg0 (adm m ρ hO 0)).W) : (dat0 (V1 m ρ) (adm m ρ hO 0) c).arrAt w (cfg0 (adm m ρ hO 0)).N = V2 m ρ hO c (Pipeline.arrRef spec0 w) :=
  (W2_arr m ρ hO c w).symm
theorem hrest0 (c : Dev nD) : ∀ b, b ∉ Finset.univ.image (Pipeline.arrRef spec0) → V2 m ρ hO c b = V1 m ρ c b :=
  fun b hb => W2_of_ne m ρ hO c b fun w e => hb (Finset.mem_image.mpr ⟨w, Finset.mem_univ _, e⟩)

/-- After the four reshapes (the fused launch's entry). -/
abbrev W3 : Dev nD → Valuation τ sig (Elt F) := fun c => StableHlo.after hostOps1 (W2 m ρ hO c)
abbrev V3 : (c : Dev nD) → (b : Ref sig .tc) → Buf (Elt F) ((c : Thread nD τ).loc b) := fun c b => W3 m ρ hO c b
/-- At the fused launch's exit. -/
def W4 (c : Dev nD) : Valuation τ sig (Elt F) :=
  Pipeline.withArrays spec1 c (W3 m ρ hO c) fun w => (dat1 (V3 m ρ hO) c).arrAt w cfg1.N
theorem W4_arr (c : Dev nD) (w : Fin cfg1.W) :
    W4 m ρ hO c (Proc.devRef .tc (Pipeline.arrRef spec1 w)) = (dat1 (V3 m ρ hO) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev V4 : (c : Dev nD) → (b : Ref sig .tc) → Buf (Elt F) ((c : Thread nD τ).loc b) := fun c b => W4 m ρ hO c b
theorem hF1 (c : Dev nD) (w : Fin cfg1.W) : (dat1 (V3 m ρ hO) c).arrAt w cfg1.N = V4 m ρ hO c (Pipeline.arrRef spec1 w) :=
  (W4_arr m ρ hO c w).symm
theorem hrest1 (c : Dev nD) : ∀ b, b ∉ Finset.univ.image (Pipeline.arrRef spec1) → V4 m ρ hO c b = V3 m ρ hO c b :=
  fun b hb => W4_of_ne m ρ hO c b fun w e => hb (Finset.mem_image.mpr ⟨w, Finset.mem_univ _, e⟩)

/-! ## The proof data family and the thread state -/

/-- Each launch's proof data at its entry contents. -/
def pdats : (p : Fin 2) → (c : Dev nD) → Dat τ (Elt F) Unit ℕ (UR sig nD τ) ℕ (Pipeline.pin (pcfgs (F := F)) (adm m ρ hO) p) c
  | ⟨0, _⟩ => fun c => dat0 (V1 m ρ) (adm m ρ hO 0) c
  | ⟨1, _⟩ => fun c => dat1 (V3 m ρ hO) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ hO c) ∗ ∃ r, prngReg c r)

/-! ## The launches as segments -/

set_option backward.isDefEq.respectTransparency.types false in
/-- The unscoped buffers that are no array of the gather launch are the token table, held whole at its contents,
    and the rest. -/
theorem rest0_split (c : Dev nD) :
    (Pipeline.unscopedRest (Ix := Unit) (Name := ℕ) (U := UR sig nD τ) (Lvl := ℕ) spec0 c (V1 m ρ c) : sProp 𝕄)
      = iprop(Pipeline.prefHeld (Ix := Unit) (Name := ℕ) (U := UR sig nD τ) (Lvl := ℕ) pre0 c (fun _ => fullShare) (tbl m ρ)
          ∗ Pipeline.unscopedRestP (Ix := Unit) (Name := ℕ) (U := UR sig nD τ) (Lvl := ℕ) pre0 spec0 c (V1 m ρ c)) := by
  have h := Pipeline.unscopedRest_split (Ix := Unit) (Name := ℕ) (U := UR sig nD τ) (Lvl := ℕ) (preFacts0) c (V1 m ρ c)
  rw [show (fun k => V1 m ρ c (pre0.ref k)) = tbl m ρ from funext (V_pre m ρ c)] at h
  exact h

set_option backward.isDefEq.respectTransparency.types false in
/-- The gather launch over the thread state: entered from every unscoped buffer at W1, left at W2. Its arrays and
    the token table split out of the unscoped buffers and put back at the exit; the generator register and the table
    into the invariant and out; nothing owed; no semaphore of the kernel's own. -/
def reg0 : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) (adm m ρ hO 0) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl m ρ))
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) (adm m ρ hO) (pdats m ρ hO) (launch0 (F := F)).win (launch0 (F := F)).arr_whole c
      ((pdats m ρ hO 0 c).share_full fun _ => rfl) (V1 m ρ c) fun _ => rfl
    rw [Pipeline.unscopedBufs_held] at hsplit
    have hsp := Entails.of_eq (rest0_split m ρ c)
    iintro ⟨⟨Hub, Hp, HO⟩, -, -⟩
    ihave H := hsplit $$ Hub
    icases H with ⟨Ha, Hrest⟩
    ihave H2 := hsp $$ Hrest
    icases H2 with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ Pipeline.prefHeld (Ix := Unit) (Name := ℕ) (U := UR sig nD τ) (Lvl := ℕ) pre0 c (fun _ => fullShare) (tbl m ρ)) from rfl]; unfold Pipeline.ΦA
    iintro ⟨Hp, Ht, Hr⟩
    isplitr [Ht]
    · isplitl [Hr]; · iexact Hr
      iexact Hp
    iexact Ht
  hout c := by
    rw [Pipeline.ownSems0_none, show (pdats m ρ hO 0 c).Φ (Fin.last _) = iprop(Pipeline.ΦA spec0 c ∗ Pipeline.prefHeld (Ix := Unit) (Name := ℕ) (U := UR sig nD τ) (Lvl := ℕ) pre0 c (fun _ => fullShare) (tbl m ρ)) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V1 m ρ c) (V2 m ρ hO c) ((pdats m ρ hO 0 c).arrAt · (cfg0 (adm m ρ hO 0)).N) (hF0 m ρ hO c) (hrest0 m ρ hO c)
    rw [Pipeline.unscopedBufs_held] at hjoin
    have hsp := Entails.of_eq (rest0_split m ρ c).symm
    iintro ⟨Ha, HO, ⟨HY, Ht⟩, Hrest⟩
    ihave Hr := hsp $$ [Ht Hrest]
    · isplitl [Ht]; · iexact Ht
      iexact Hrest
    imodintro
    isplitl [Ha Hr]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused launch over the thread state: entered from every unscoped buffer at W3, left at W4. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(Tₙ m ρ hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ hO c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V3 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V3 m ρ hO c) (V4 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program's four segments in order. -/
abbrev segs : List (Pipeline.Seg (pcfgs (F := F)) (adm m ρ hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ hO)),
    .region (reg1 m ρ hO) ]
/-- The program is the run of the segments. -/
theorem main_run (c : Dev nD) : main (F := F) c = Pipeline.Seg.run (segs m ρ hO) := (main_chain c).trans (by chain_rfl)

set_option backward.isDefEq.respectTransparency.types false in
/-- THE RUN. Under the gather launch's side condition, from any memory with zero counters, every weakly fair
    execution of the program terminates, nothing faulting, and in every final state each unscoped buffer holds the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO))) (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hO c) s')
      isplitl [Hh] <;> iassumption)
    (hQ := fun s h c => h c)

/-- info: 'Cert.KernelIdeal.Frame.run_all' depends on axioms: [propext, Classical.choice, Quot.sound] -/
#guard_msgs in #print axioms run_all

end Cert.KernelIdeal.Frame

end
-- ==== Proof.KIFrame.lean ====
/-
  The program's frame claim, and its result array named. The gather launch's side condition holds as soon as every
  token word, read unsigned, is below 32000: the token table is the token array re-laid as [4096], so each of its words
  is a token. Each of the six arguments is read back through the fold of buffer contents to its launch contents: no
  reshape writes an argument, and a launch changes only its output array. The result array is the fused launch's output
  after its sixteen write-backs.
-/
import proofs.«400847_j31129922962205_2_alg».proof.Proof.KIRun
import proofs.«400847_j31129922962205_2_alg».proof.Proof.Gen.KernelIdeal.Regions
import proofs.«400847_j31129922962205_2_alg».proof.Proof.PreRange
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## The token table, and the side condition from the token range -/

/-- The token table as the gather launch finds it: the token array re-laid as [4096]. -/
theorem V1_main_v0 (c : Dev nD) : V1 m ρ c main_v0 = shapeCast S4096 (m ((c : Thread nD τ).loc main_arg0)) shapeCasts_S4x1024_S4096 := by
  dsimp only [V1, W1, W0, hostOps0]
  after_results
  rfl

/-- Every token below 32000 (unsigned): every row the table names lies inside the embedding table. -/
theorem ok_of_lt (h : ∀ (c : Dev nD) (i : S4x1024.Idx), ((m ((c : Thread nD τ).loc main_arg0) : S4x1024.Idx → BitVec 32) i).toNat < 32000) : Ok m ρ :=
  Cert.KernelIdeal.OkOfRange.ok0_of_lt (tbl m ρ) (fun k => by
    have e : (tbl m ρ 0 : S4096.Idx → BitVec 32) = shapeCast S4096 (m (((0 : Dev nD) : Thread nD τ).loc main_arg0)) shapeCasts_S4x1024_S4096 := V1_main_v0 m ρ 0
    rw [e]
    exact h 0 _)

variable (hO : Ok m ρ)

/-! ## The arguments end as launched -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ hO c (Proc.devRef .tc r) = W2 m ρ hO c (Proc.devRef .tc r) :=
  StableHlo.after_of_writes_sub hostOps1 _ hostOps1_writes h

theorem W4_main_arg0 (c : Dev nD) : W4 m ρ hO c (Proc.devRef .tc main_arg0) = m ((c : Thread nD τ).loc main_arg0) :=
  calc W4 m ρ hO c (Proc.devRef .tc main_arg0)
    _ = W3 m ρ hO c (Proc.devRef .tc main_arg0) := W4_of_ne m ρ hO c main_arg0 (by decide)
    _ = W2 m ρ hO c (Proc.devRef .tc main_arg0) := W3_of m ρ hO c main_arg0 (by decide)
    _ = W1 m ρ c (Proc.devRef .tc main_arg0) := W2_of_ne m ρ hO c main_arg0 (by decide)
    _ = W0 m ρ c (Proc.devRef .tc main_arg0) := W1_of m ρ c main_arg0 (by decide)
    _ = m ((c : Thread nD τ).loc main_arg0) := rfl
theorem W4_main_arg1 (c : Dev nD) : W4 m ρ hO c (Proc.devRef .tc main_arg1) = m ((c : Thread nD τ).loc main_arg1) :=
  calc W4 m ρ hO c (Proc.devRef .tc main_arg1)
    _ = W3 m ρ hO c (Proc.devRef .tc main_arg1) := W4_of_ne m ρ hO c main_arg1 (by decide)
    _ = W2 m ρ hO c (Proc.devRef .tc main_arg1) := W3_of m ρ hO c main_arg1 (by decide)
    _ = W1 m ρ c (Proc.devRef .tc main_arg1) := W2_of_ne m ρ hO c main_arg1 (by decide)
    _ = W0 m ρ c (Proc.devRef .tc main_arg1) := W1_of m ρ c main_arg1 (by decide)
    _ = m ((c : Thread nD τ).loc main_arg1) := rfl
theorem W4_main_arg2 (c : Dev nD) : W4 m ρ hO c (Proc.devRef .tc main_arg2) = m ((c : Thread nD τ).loc main_arg2) :=
  calc W4 m ρ hO c (Proc.devRef .tc main_arg2)
    _ = W3 m ρ hO c (Proc.devRef .tc main_arg2) := W4_of_ne m ρ hO c main_arg2 (by decide)
    _ = W2 m ρ hO c (Proc.devRef .tc main_arg2) := W3_of m ρ hO c main_arg2 (by decide)
    _ = W1 m ρ c (Proc.devRef .tc main_arg2) := W2_of_ne m ρ hO c main_arg2 (by decide)
    _ = W0 m ρ c (Proc.devRef .tc main_arg2) := W1_of m ρ c main_arg2 (by decide)
    _ = m ((c : Thread nD τ).loc main_arg2) := rfl
theorem W4_main_arg3 (c : Dev nD) : W4 m ρ hO c (Proc.devRef .tc main_arg3) = m ((c : Thread nD τ).loc main_arg3) :=
  calc W4 m ρ hO c (Proc.devRef .tc main_arg3)
    _ = W3 m ρ hO c (Proc.devRef .tc main_arg3) := W4_of_ne m ρ hO c main_arg3 (by decide)
    _ = W2 m ρ hO c (Proc.devRef .tc main_arg3) := W3_of m ρ hO c main_arg3 (by decide)
    _ = W1 m ρ c (Proc.devRef .tc main_arg3) := W2_of_ne m ρ hO c main_arg3 (by decide)
    _ = W0 m ρ c (Proc.devRef .tc main_arg3) := W1_of m ρ c main_arg3 (by decide)
    _ = m ((c : Thread nD τ).loc main_arg3) := rfl
theorem V3_main_arg4 (c : Dev nD) : V3 m ρ hO c main_arg4 = m ((c : Thread nD τ).loc main_arg4) :=
  calc W3 m ρ hO c (Proc.devRef .tc main_arg4)
    _ = W2 m ρ hO c (Proc.devRef .tc main_arg4) := W3_of m ρ hO c main_arg4 (by decide)
    _ = W1 m ρ c (Proc.devRef .tc main_arg4) := W2_of_ne m ρ hO c main_arg4 (by decide)
    _ = W0 m ρ c (Proc.devRef .tc main_arg4) := W1_of m ρ c main_arg4 (by decide)
    _ = m ((c : Thread nD τ).loc main_arg4) := rfl
theorem W4_main_arg4 (c : Dev nD) : W4 m ρ hO c (Proc.devRef .tc main_arg4) = m ((c : Thread nD τ).loc main_arg4) :=
  (W4_arr m ρ hO c 3).trans ((((dat1 (V3 m ρ hO) c).arrAt_in 3 rfl _).trans (A_eq1 (V3 m ρ hO) c 3)).trans (V3_main_arg4 m ρ hO c))
theorem V3_main_arg5 (c : Dev nD) : V3 m ρ hO c main_arg5 = m ((c : Thread nD τ).loc main_arg5) :=
  calc W3 m ρ hO c (Proc.devRef .tc main_arg5)
    _ = W2 m ρ hO c (Proc.devRef .tc main_arg5) := W3_of m ρ hO c main_arg5 (by decide)
    _ = W1 m ρ c (Proc.devRef .tc main_arg5) := W2_of_ne m ρ hO c main_arg5 (by decide)
    _ = W0 m ρ c (Proc.devRef .tc main_arg5) := W1_of m ρ c main_arg5 (by decide)
    _ = m ((c : Thread nD τ).loc main_arg5) := rfl
theorem W4_main_arg5 (c : Dev nD) : W4 m ρ hO c (Proc.devRef .tc main_arg5) = m ((c : Thread nD τ).loc main_arg5) :=
  (W4_arr m ρ hO c 4).trans ((((dat1 (V3 m ρ hO) c).arrAt_in 4 rfl _).trans (A_eq1 (V3 m ρ hO) c 4)).trans (V3_main_arg5 m ρ hO c))

/-! ## The frame claim and the result -/

/-- THE FRAME, with the result array named: under the gather launch's side condition every weakly fair execution
    terminates, nothing faulting, the result array ends at the fused launch's output after its last write-back, and
    the six arguments end as launched. -/
theorem run_result : θ_run defs (onTc (τ := τ) (main (F := F))) ⟨m, fun _ => 0, ρ⟩ (fun r => ∀ c : Dev nD,
      r.2.mem ((c.tc : Thread nD τ).loc main_v7) = (dat1 (V3 m ρ hO) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v7 (by decide))).trans (W4_arr m ρ hO c 5),
     (h c _ (mem_uc main_arg0 (by decide))).trans (W4_main_arg0 m ρ hO c),
     (h c _ (mem_uc main_arg1 (by decide))).trans (W4_main_arg1 m ρ hO c),
     (h c _ (mem_uc main_arg2 (by decide))).trans (W4_main_arg2 m ρ hO c),
     (h c _ (mem_uc main_arg3 (by decide))).trans (W4_main_arg3 m ρ hO c),
     (h c _ (mem_uc main_arg4 (by decide))).trans (W4_main_arg4 m ρ hO c),
     (h c _ (mem_uc main_arg5 (by decide))).trans (W4_main_arg5 m ρ hO c)⟩) (run_all m ρ hO)

/-- The frame claim alone. -/
theorem frame (hO : Ok m ρ) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_result m ρ hO)

end Cert.KernelIdeal.Frame

end
-- ==== Proof.KIHost.lean ====
/-
  The reshapes around the two launches, read at an index. The table the gather launch reads is the embedding table
  re-laid [32000, 512] → [32000, 4, 128]: entry (r, q, l) is entry (r, 128·q + l). The gather's output [4096, 4, 128] is
  re-laid to [4096, 512] and then to [4, 1024, 512]: entry (b, t, f) is entry (1024·b + t, f / 128, f % 128). The token
  table is the token array re-laid [4, 1024] → [4096]: word 1024·b + t is token (b, t). The span starts and ends are re-laid
  [4, 512] → [4, 1, 512]. The node table and the position embeddings reach the fused launch as launched.
-/
import proofs.«400847_j31129922962205_2_alg».proof.Proof.KIFrame
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL Idealize.SL.Sem

variable {F : FTy → Type} [FloatOps F]
variable (m : (ℓ : Loc nD τ sig) → Buf (Elt F) ℓ) (ρ : Dev nD → PrngReg) (hO : Ok m ρ)

/-! ## The re-lays at an index -/

section Relay
variable {α : Type}

/-- [32000, 512] → [32000, 4, 128] at (r, q, l). -/
theorem relay_table (X : S32000x512.Idx → α) (r : Fin 32000) (q : Fin 4) (l : Fin 128) :
    shapeCast S32000x4x128 X shapeCasts_S32000x512_S32000x4x128 (ix3 r q l) = X (ix2 r (⟨q.val * 128 + l.val, by omega⟩ : Fin 512)) :=
  shapeCast_apply _ _ _ _ (by
    rw [Shape.rowMajor_val_two, Shape.rowMajor_val_three]
    show r.val * 512 + (q.val * 128 + l.val) = (r.val * 4 + q.val) * 128 + l.val
    omega)

/-- [4096, 4, 128] → [4096, 512] → [4, 1024, 512] at (b, t, f). -/
theorem relay_rows (X : S4096x4x128.Idx → α) (b : Fin 4) (t : Fin 1024) (f : Fin 512) :
    shapeCast S4x1024x512 (shapeCast S4096x512 X shapeCasts_S4096x4x128_S4096x512) shapeCasts_S4096x512_S4x1024x512 (ix3 b t f)
      = X (ix3 (⟨b.val * 1024 + t.val, by omega⟩ : Fin 4096) (⟨f.val / 128, by omega⟩ : Fin 4) (⟨f.val % 128, by omega⟩ : Fin 128)) := by
  refine (shapeCast_apply _ _ (ix3 b t f) (ix2 (⟨b.val * 1024 + t.val, by omega⟩ : Fin 4096) f) (by
    rw [Shape.rowMajor_val_two, Shape.rowMajor_val_three]
    show (b.val * 1024 + t.val) * 512 + f.val = (b.val * 1024 + t.val) * 512 + f.val
    rfl)).trans ?_
  exact shapeCast_apply _ _ _ _ (by
    rw [Shape.rowMajor_val_two, Shape.rowMajor_val_three]
    show ((b.val * 1024 + t.val) * 4 + f.val / 128) * 128 + f.val % 128 = (b.val * 1024 + t.val) * 512 + f.val
    omega)

/-- [4, 1024] → [4096] at 1024·b + t. -/
theorem relay_tokens (X : S4x1024.Idx → α) (b : Fin 4) (t : Fin 1024) :
    shapeCast S4096 X shapeCasts_S4x1024_S4096 (ix1 (⟨b.val * 1024 + t.val, by omega⟩ : Fin 4096)) = X (ix2 b t) :=
  shapeCast_apply _ _ _ _ (by
    rw [Shape.rowMajor_val_two, Shape.rowMajor_val_one]
    show b.val * 1024 + t.val = b.val * 1024 + t.val
    rfl)

/-- [4, 512] → [4, 1, 512] at (b, 0, n). -/
theorem relay_spans (X : S4x512.Idx → α) (b : Fin 4) (n : Fin 512) :
    shapeCast S4x1x512 X shapeCasts_S4x512_S4x1x512 (ix3 b (0 : Fin 1) n) = X (ix2 b n) :=
  shapeCast_apply _ _ _ _ (by
    rw [Shape.rowMajor_val_two, Shape.rowMajor_val_three]
    show b.val * 512 + n.val = (b.val * 1 + 0) * 512 + n.val
    omega)

end Relay

/-! ## The launches' operand arrays -/

/-- The table the gather launch reads: the embedding table re-laid. -/
theorem V1_main_v1 (c : Dev nD) : V1 m ρ c main_v1 = shapeCast S32000x4x128 (m ((c : Thread nD τ).loc main_arg3)) shapeCasts_S32000x512_S32000x4x128 := by
  dsimp only [V1, W1, W0, hostOps0]
  after_results
  rfl

/-- The token rows the fused launch reads: the gather's output re-laid twice. -/
theorem V3_main_v4 (c : Dev nD) : V3 m ρ hO c main_v4
    = shapeCast S4x1024x512 (shapeCast S4096x512 (V2 m ρ hO c main_v2) shapeCasts_S4096x4x128_S4096x512) shapeCasts_S4096x512_S4x1024x512 := by
  dsimp only [V3, W3, V2, hostOps1]
  after_results
  rfl

/-- An argument no reshape before the fused launch writes and the gather launch does not stage reaches that boundary as launched. -/
theorem W2_main_arg1 (c : Dev nD) : W2 m ρ hO c (Proc.devRef .tc main_arg1) = m ((c : Thread nD τ).loc main_arg1) :=
  (W2_of_ne m ρ hO c main_arg1 (by decide)).trans ((W1_of m ρ c main_arg1 (by decide)).trans rfl)
theorem W2_main_arg2 (c : Dev nD) : W2 m ρ hO c (Proc.devRef .tc main_arg2) = m ((c : Thread nD τ).loc main_arg2) :=
  (W2_of_ne m ρ hO c main_arg2 (by decide)).trans ((W1_of m ρ c main_arg2 (by decide)).trans rfl)

/-- The span starts and ends the fused launch reads: the arguments re-laid. -/
theorem V3_main_v5 (c : Dev nD) : V3 m ρ hO c main_v5 = shapeCast S4x1x512 (m ((c : Thread nD τ).loc main_arg1)) shapeCasts_S4x512_S4x1x512 := by
  rw [← W2_main_arg1 m ρ hO c]
  dsimp only [V3, W3, hostOps1]
  after_results
  rfl
theorem V3_main_v6 (c : Dev nD) : V3 m ρ hO c main_v6 = shapeCast S4x1x512 (m ((c : Thread nD τ).loc main_arg2)) shapeCasts_S4x512_S4x1x512 := by
  rw [← W2_main_arg2 m ρ hO c]
  dsimp only [V3, W3, hostOps1]
  after_results
  rfl

end Cert.KernelIdeal.Frame

end
-- ==== Proof.Spec.lean ====
/-
  The result both programs compute, as ONE function of the six argument arrays, entry by entry over the extended reals:

    out[b, t, f] = (embed_tok[tokens[b, t], f] + Σ_n span[b, t, n] · embed_node[n, f]) + pos_emb[0, t, f]

  where span[b, t, n] is 1 when node n's span [starts[b, n], ends[b, n]] (both ends inclusive, compared as signed words)
  contains the position t, and 0 otherwise. The sum runs over all 512 nodes in one go; the two additions are grouped as
  written. A token word is read as a row of the table by its unsigned value, capped at the last row (for a token in
  [0, 32000) that is the token itself).
-/
import Idealize.ShloMosaic.PureOps.Ideal
import Idealize.ShloMosaic.Lib.ValueIdx

noncomputable section

namespace Cert.Spec

open Idealize.ShloMosaic Idealize.ShloMosaic.ValueIdx

abbrev S4x1024 : Shape := ⟨2, ![4, 1024]⟩
abbrev S4x512 : Shape := ⟨2, ![4, 512]⟩
abbrev S32000x512 : Shape := ⟨2, ![32000, 512]⟩
abbrev S512x512 : Shape := ⟨2, ![512, 512]⟩
abbrev S1x1024x512 : Shape := ⟨3, ![1, 1024, 512]⟩
abbrev S4x1024x512 : Shape := ⟨3, ![4, 1024, 512]⟩

/-- A position of the sequence as the 32-bit word both programs compare spans with. -/
def posWord (t : Fin 1024) : BitVec 32 := BitVec.ofNat 32 t.val

/-- The one-bit test "start ≤ t ≤ end", both comparisons signed. -/
def inSpan (s e : BitVec 32) (t : Fin 1024) : BitVec 1 :=
  IntOp.andi (IntOp.cmpi .sle s (posWord t)) (IntOp.cmpi .sle (posWord t) e)

/-- The span indicator as an extended real: 0 or 1. -/
def spanVal (s e : BitVec 32) (t : Fin 1024) : EReal := (((inSpan s e t).toNat : ℝ) : EReal)

/-- The table row a token word names: its unsigned value, capped at the last row. -/
def row (w : BitVec 32) : Fin 32000 := ⟨min w.toNat 31999, by omega⟩

theorem row_val_of_lt {w : BitVec 32} (h : w.toNat < 32000) : (row w).val = w.toNat := by
  unfold row; simp only; omega

/-- The result at batch entry b, position t, feature f. -/
def g (tok : IVec S4x1024 32) (st en : IVec S4x512 32) (E : FVec Ideal S32000x512 .f32)
    (Nd : FVec Ideal S512x512 .f32) (P : FVec Ideal S1x1024x512 .f32) (b : Fin 4) (t : Fin 1024) (f : Fin 512) : EReal :=
  (E (ix2 (row (tok (ix2 b t))) f)
      + ∑ n : Fin 512, spanVal (st (ix2 b n)) (en (ix2 b n)) t * Nd (ix2 n f))
    + P (ix3 (0 : Fin 1) t f)

/-- The whole result array. -/
def G (tok : IVec S4x1024 32) (st en : IVec S4x512 32) (E : FVec Ideal S32000x512 .f32)
    (Nd : FVec Ideal S512x512 .f32) (P : FVec Ideal S1x1024x512 .f32) : FVec Ideal S4x1024x512 .f32 :=
  fun j => g tok st en E Nd P (j 0) (j 1) (j 2)

theorem G_apply (tok : IVec S4x1024 32) (st en : IVec S4x512 32) (E : FVec Ideal S32000x512 .f32)
    (Nd : FVec Ideal S512x512 .f32) (P : FVec Ideal S1x1024x512 .f32) (b : Fin 4) (t : Fin 1024) (f : Fin 512) :
    G tok st en E Nd P (ix3 b t f) = g tok st en E Nd P b t f := rfl

end Cert.Spec

end
-- ==== Proof.KIValue0.lean ====
/-
  What the row gather leaves in its output array. Grid point t of the one-axis grid of 4096 points fetches, as its input
  block, row (word t of the token table) of the table array [32000, 4, 128], the word read unsigned; the body stores the
  loaded block back unchanged (the one cast between load and store re-lays [1, 4, 128] as itself); and the block is
  written back to row t of the output array [4096, 4, 128]. The 4096 output blocks tile the output array, one row each,
  so after the last point entry (t, q, l) of the output is entry (word t, q, l) of the table array as the launch found
  it. For an admissible table every word is below 32000 (its block lies inside the table array), so reading the row as
  the word capped at the last row changes nothing.

  Stated at any contents V of the buffers when the launch is entered and any admissible contents a of the token table,
  which stays a variable throughout: the two windows' block indices at a point, the body's result, the block a point
  writes back as a block of ONE whole-array function (the gathered array), membership in a block by coordinates, the
  cover, and the array after the run.
-/
import proofs.«400847_j31129922962205_2_alg».proof.Proof.KIRegion0
import proofs.«400847_j31129922962205_2_alg».proof.Proof.Spec
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))
variable (a : (pcfg0 (F := F)).Adm)

/-! ## Indices and the grid -/

theorem hz3 : (![0, 0, 0] : Fin 3 → Nat) = fun _ => 0 := funext fun k => by fin_cases k <;> rfl

/-- A point of the one-axis grid is below 4096, -/
theorem point_lt (t : Fin (cfg0 a).N) : t.val < 4096 := Nat.lt_of_lt_of_eq t.isLt N_0

/-- and is its own coordinate. -/
theorem coord_val (t : Fin (cfg0 a).N) : (grid0.coords t 0).val = t.val := by
  show t.val / grid0.stride 0 % 4096 = t.val
  have h := point_lt a t
  have hs : grid0.stride 0 = 1 := by decide
  rw [hs]; omega

/-- Word t of the token table. -/
def tok (t : Fin 4096) : BitVec 32 := (a.1 0 : S4096.Idx → BitVec 32) (ix1 t)

/-- The output's block at point t is block (t, 0, 0). -/
theorem out_index (t : Fin (cfg0 a).N) :
    ((cfg0 a).win 1).index t (0 : Fin 3) = t.val ∧ ((cfg0 a).win 1).index t (1 : Fin 3) = 0 ∧ ((cfg0 a).win 1).index t (2 : Fin 3) = 0 := by
  refine ⟨?_, rfl, rfl⟩
  show (BitVec.ofNat 32 (grid0.coords t 0).val).toNat = t.val
  rw [coord_val, BitVec.toNat_ofNat]
  have h := point_lt a t
  omega

/-- The input's block at point t is block (word t, 0, 0), the word read unsigned. -/
theorem in_index (t : Fin (cfg0 a).N) :
    ((cfg0 a).win 0).index t (0 : Fin 3) = (tok a ⟨t.val, point_lt a t⟩).toNat ∧ ((cfg0 a).win 0).index t (1 : Fin 3) = 0 ∧ ((cfg0 a).win 0).index t (2 : Fin 3) = 0 := by
  refine ⟨?_, rfl, rfl⟩
  show ((a.1 0 : S4096.Idx → BitVec 32) _).toNat = _
  unfold tok
  refine congrArg (fun x => ((a.1 0 : S4096.Idx → BitVec 32) x).toNat) ?_
  funext d
  apply Fin.ext
  match d with
  | ⟨0, _⟩ =>
    show (BitVec.ofNat 32 (grid0.coords t 0).val).toNat + 1 * 0 = t.val
    rw [coord_val, BitVec.toNat_ofNat]
    have h := point_lt a t
    omega

/-- Every word of an admissible table names a row of the [32000, 4, 128] array: its block is inside it. -/
theorem tok_lt (t : Fin 4096) : (tok a t).toNat < 32000 := by
  have hN : t.val < (cfg0 a).N := Nat.lt_of_lt_of_eq t.isLt N_0.symm
  have h : (((cfg0 a).win 0).index ⟨t.val, hN⟩ (0 : Fin 3) + 1) * 1 ≤ 32000 := (a.2 (grid0.coords ⟨t.val, hN⟩)).elim fun h _ => h 0
  rw [(in_index a ⟨t.val, hN⟩).1] at h
  have e : (⟨t.val, point_lt a ⟨t.val, hN⟩⟩ : Fin 4096) = t := Fin.ext rfl
  rw [e] at h
  omega

theorem row_tok (t : Fin 4096) : (Cert.Spec.row (tok a t)).val = (tok a t).toNat := Cert.Spec.row_val_of_lt (tok_lt a t)

/-! ## The body's result -/

/-- The body's one store is of the loaded block, re-laid by an identity cast: the output's buffer ends at the input's. -/
theorem out0_1_eq (x0 : Vec F S1x4x128 .f32) : out0_1 x0 = x0 := by
  unfold out0_1
  rw [View.canon_unit_zero hz3]
  unfold k0_pay1
  rw [View.ld_unit_zero (S := S1x4x128) hz3]
  exact shapeCast_self _ _

/-! ## The gathered array -/

/-- Entry (t, q, l) of the gathered array: entry (row t, q, l) of the table as the launch finds it. -/
def gatherAt (c : Dev nD) (t : Fin 4096) (q : Fin 4) (l : Fin 128) : Elt F .f32 :=
  (V c main_v1 : S32000x4x128.Idx → Elt F .f32) (ix3 (Cert.Spec.row (tok a t)) q l)

/-- The gathered array. -/
def gathered (c : Dev nD) : S4096x4x128.Idx → Elt F .f32 := fun i => gatherAt V a c (i 0) (i 1) (i 2)

/-- An entry of the table whose row is word t, read at an index of the output's row t, is the gathered array's. -/
theorem gathered_of_coords (c : Dev nD) (i0 : S32000x4x128.Idx) (i1 : S4096x4x128.Idx) (t : Fin 4096)
    (ht : (i1 0).val = t.val) (h0 : (i0 0).val = (tok a t).toNat) (h1 : (i0 1).val = (i1 1).val) (h2 : (i0 2).val = (i1 2).val) :
    (V c main_v1 : S32000x4x128.Idx → Elt F .f32) i0 = gathered V a c i1 := by
  unfold gathered gatherAt
  refine congrArg (V c main_v1 : S32000x4x128.Idx → Elt F .f32) ?_
  have e : (i1 0 : Fin 4096) = t := Fin.ext ht
  rw [e]
  funext d
  apply Fin.ext
  match d with
  | ⟨0, _⟩ => show (i0 0).val = (Cert.Spec.row (tok a t)).val; rw [row_tok, h0]
  | ⟨1, _⟩ => exact h1
  | ⟨2, _⟩ => exact h2

/-- What point t writes back is block t of the gathered array. -/
theorem flushed_gathered (c : Dev nD) (t : Fin (cfg0 a).N) :
    (dat0 V a c).flushed 1 t = (((cfg0 a).win 1).blk t).view.read (Elt F) (gathered V a c) := by
  show ((cfg0 a).win 1).cut ((cfg0 a).grid.coords t) ((dat0 V a c).after 1 t) = _
  rw [after0_1]
  refine (congrArg (((cfg0 a).win 1).cut ((cfg0 a).grid.coords t)) (out0_1_eq (iblk0 V a c 0 t))).trans ?_
  obtain ⟨e0, e1, e2⟩ := in_index a t
  obtain ⟨o0, o1, o2⟩ := out_index a t
  refine funext fun (j : S1x4x128.Idx) => ?_
  show (V c main_v1 : S32000x4x128.Idx → Elt F .f32) ((((cfg0 a).win 0).blk t).view.emb j) = gathered V a c ((((cfg0 a).win 1).blk t).view.emb j)
  have hj0 : (j 0).val < 1 := (j 0).isLt
  refine gathered_of_coords V a c _ _ ⟨t.val, point_lt a t⟩ ?_ ?_ ?_ ?_
  · show ((cfg0 a).win 1).index t (0 : Fin 3) * 1 + 1 * (j 0).val = t.val; omega
  · show ((cfg0 a).win 0).index t (0 : Fin 3) * 1 + 1 * (j 0).val = _; omega
  · show ((cfg0 a).win 0).index t (1 : Fin 3) * 4 + 1 * (j 1).val = ((cfg0 a).win 1).index t (1 : Fin 3) * 4 + 1 * (j 1).val; omega
  · show ((cfg0 a).win 0).index t (2 : Fin 3) * 128 + 1 * (j 2).val = ((cfg0 a).win 1).index t (2 : Fin 3) * 128 + 1 * (j 2).val; omega

/-! ## From blocks to the array -/

/-- Every point writes its output block back: the next point's block is another row. -/
theorem out_flush (t : Fin (cfg0 a).N) : ((cfg0 a).win 1).flush t = true := by
  have hN : (cfg0 a).grid.N = 4096 := N_0
  have ht := point_lt a t
  unfold Pipeline.Window.flush
  rw [show ((cfg0 a).win 1).isOut = true from rfl, Bool.true_and, Bool.or_eq_true, decide_eq_true_eq, decide_eq_true_eq]
  by_cases h : t.val + 1 = (cfg0 a).grid.N
  · exact .inl h
  · have hlt : t.val + 1 < (cfg0 a).grid.N := by omega
    refine .inr ⟨hlt, fun e => ?_⟩
    have e0 := congrFun e (0 : Fin 3)
    have o1 : ((cfg0 a).win 1).index ⟨t.val + 1, hlt⟩ (0 : Fin 3) = t.val + 1 := (out_index a ⟨t.val + 1, hlt⟩).1
    have o0 : ((cfg0 a).win 1).index t (0 : Fin 3) = t.val := (out_index a t).1
    rw [o1, o0] at e0
    omega

/-- An index of the array is in point t's block iff each coordinate is in the block's range on its axis. -/
theorem mem_out_blk (t : Fin (cfg0 a).N) (i : S4096x4x128.Idx) :
    i ∈ (((cfg0 a).win 1).blk t).view.set ↔ ∀ d : Fin 3, ((cfg0 a).win 1).index t d * S1x4x128.size d ≤ (i d).val ∧ (i d).val < ((cfg0 a).win 1).index t d * S1x4x128.size d + S1x4x128.size d := by
  refine Iff.trans (Iff.of_eq (congrArg (fun s => i ∈ s) (View.set_slice_whole main_v2 (((cfg0 a).win 1).rect t)))) ?_
  exact Rect.mem_set_unit

/-- The 4096 output blocks tile the array: an index of row r is in point r's block. -/
theorem out_cover (i : S4096x4x128.Idx) :
    ∃ t : Fin (cfg0 a).N, ((cfg0 a).win 1).flush t = true ∧ i ∈ (((cfg0 a).win 1).blk t).view.set := by
  have hi0 : (i 0).val < 4096 := (i 0).isLt
  have hi1 : (i 1).val < 4 := (i 1).isLt
  have hi2 : (i 2).val < 128 := (i 2).isLt
  have hN : (i 0).val < (cfg0 a).N := Nat.lt_of_lt_of_eq hi0 N_0.symm
  have o0 : ((cfg0 a).win 1).index ⟨(i 0).val, hN⟩ (0 : Fin 3) = (i 0).val := (out_index a ⟨(i 0).val, hN⟩).1
  have o1 : ((cfg0 a).win 1).index ⟨(i 0).val, hN⟩ (1 : Fin 3) = 0 := (out_index a ⟨(i 0).val, hN⟩).2.1
  have o2 : ((cfg0 a).win 1).index ⟨(i 0).val, hN⟩ (2 : Fin 3) = 0 := (out_index a ⟨(i 0).val, hN⟩).2.2
  refine ⟨⟨(i 0).val, hN⟩, out_flush a _, ?_⟩
  rw [mem_out_blk]
  intro d
  match d with
  | ⟨0, _⟩ => show ((cfg0 a).win 1).index ⟨(i 0).val, hN⟩ (0 : Fin 3) * 1 ≤ (i 0).val ∧ (i 0).val < ((cfg0 a).win 1).index ⟨(i 0).val, hN⟩ (0 : Fin 3) * 1 + 1; omega
  | ⟨1, _⟩ => show ((cfg0 a).win 1).index ⟨(i 0).val, hN⟩ (1 : Fin 3) * 4 ≤ (i 1).val ∧ (i 1).val < ((cfg0 a).win 1).index ⟨(i 0).val, hN⟩ (1 : Fin 3) * 4 + 4; omega
  | ⟨2, _⟩ => show ((cfg0 a).win 1).index ⟨(i 0).val, hN⟩ (2 : Fin 3) * 128 ≤ (i 2).val ∧ (i 2).val < ((cfg0 a).win 1).index ⟨(i 0).val, hN⟩ (2 : Fin 3) * 128 + 128; omega

/-- The output array after all 4096 points is the gathered array. -/
theorem arr_gathered (c : Dev nD) : (dat0 V a c).arrAt 1 (cfg0 a).N = gathered V a c :=
  (dat0 V a c).arrAt_eq_of_cover 1 (gathered V a c) (fun t _ => flushed_gathered V a c t) (out_cover a)

/-- Entry (t, q, l) of the output array after all 4096 points is entry (row t, q, l) of the table array as the launch found
    it, row t the table's word t read unsigned (below 32000 for an admissible table, so the cap is idle). -/
theorem gather_arr (c : Dev nD) (t : Fin 4096) (q : Fin 4) (l : Fin 128) :
    ((dat0 V a c).arrAt 1 (cfg0 a).N : S4096x4x128.Idx → Elt F .f32) (ValueIdx.ix3 t q l)
      = (V c main_v1 : S32000x4x128.Idx → Elt F .f32) (ValueIdx.ix3 (Cert.Spec.row ((a.1 0 : S4096.Idx → BitVec 32) (ValueIdx.ix1 t))) q l) :=
  congrFun (arr_gathered V a c) (ix3 t q l)

end Cert.KernelIdeal.Frame

end
-- ==== Proof.KIValue1Pay.lean ====
/-
  One entry of what the fused body stores, at the ideal values. At row r and feature f of its [1, 256, 512] block the
  body's value is the token row's entry, plus the sum over the 512 nodes of the span indicator of the row's position
  against node n's span times the node table's entry (n, f), plus the position embedding's entry, the two additions
  grouped as written. The row's position is 256 · q + r for the block's number q along the sequence; as a 32-bit word
  it is the iota's entry r plus the word 256 · q, with no wrap-around because the position is below 1024. The indicator
  is the one-bit test "start ≤ position ≤ end" widened to 32 bits and converted as a signed integer, which for one bit is
  its unsigned value; the two narrowings to bf16 are the identity on extended reals; the matrix product into the zero
  accumulator is the plain sum over the contracted axis.
-/
import proofs.«400847_j31129922962205_2_alg».proof.Proof.Gen.KernelIdeal.Skeleton
import proofs.«400847_j31129922962205_2_alg».proof.Proof.Spec
import Idealize.ShloMosaic.Lib.Pipeline.Value
import Idealize.ShloMosaic.Lib.ValueIdx
import Idealize.ShloMosaic.PureOps.Ideal.Laws

noncomputable section

namespace Cert.KernelIdeal.Frame

open Cert.KernelIdeal Cert.KernelIdeal.Gen
open Idealize.ShloMosaic Idealize.ShloMosaic.ValueIdx

/-! ## Words -/

/-- Row r of the q-th block of 256 rows sits at position 256 · q + r: the iota's entry plus the block's first position,
    added as 32-bit words, is that position's word. -/
theorem posWord_block (q : Nat) (hq : q < 4) (r : Fin 256) (t : Fin 1024) (ht : t.val = q * 256 + r.val) :
    IntOp.addi (BitVec.ofNat 32 r.val) (Scalar.muli (BitVec.ofNat 32 q) 256#32) = Cert.Spec.posWord t := by
  have hr : r.val < 256 := r.isLt
  unfold Cert.Spec.posWord IntOp.addi Scalar.muli IntOp.muli
  apply BitVec.eq_of_toNat_eq
  simp only [BitVec.toNat_add, BitVec.toNat_mul, BitVec.toNat_ofNat]
  omega

/-- A one-bit word widened with zeros to 32 bits and read as a signed integer is its unsigned value. -/
theorem bit_toInt (w : BitVec 1) : ((w.setWidth 32).toInt : ℝ) = (w.toNat : ℝ) := by
  have h : (w.setWidth 32).toInt = (w.toNat : Int) := by
    rcases BitVec.eq_zero_or_eq_one w with h | h <;> subst h <;> decide
  rw [h]; simp

/-! ## The layout operations at an entry -/

/-- A [1, 1, 512] vector of span ends re-laid as [512], then as [1, 512], then repeated down 256 rows: entry (r, n) is
    the vector's n-th. -/
theorem spanRow_apply (v : IVec S1x1x512 32) (r : Fin 256) (n : Fin 512) :
    broadcastTo S256x512 (shapeCast S1x512 (shapeCast S512 v shapeCasts_S1x1x512_S512) shapeCasts_S512_S1x512) broadcasts_S1x512_S256x512 (ix2 r n)
      = v (ix3 (0 : Fin 1) (0 : Fin 1) n) := by
  refine (broadcastTo_apply _ broadcasts_S1x512_S256x512 (ix2 r n) (ix2 (0 : Fin 1) n) (fun a => ?_)).trans ?_
  · match a with
    | ⟨0, _⟩ => show (0 : Nat) = if (1 : Nat) = 1 then 0 else _; rw [if_pos rfl]
    | ⟨1, _⟩ => show n.val = if (512 : Nat) = 1 then 0 else n.val; rw [if_neg (by decide)]
  refine (shapeCast_apply _ shapeCasts_S512_S1x512 (ix2 (0 : Fin 1) n) (ix1 n) ?_).trans ?_
  · rw [Shape.rowMajor_val_one, Shape.rowMajor_val_two]; show n.val = 0 * 512 + n.val; omega
  refine shapeCast_apply _ shapeCasts_S1x1x512_S512 (ix1 n) (ix3 (0 : Fin 1) (0 : Fin 1) n) ?_
  rw [Shape.rowMajor_val_three, Shape.rowMajor_val_one]; show (0 * 1 + 0) * 512 + n.val = n.val; omega

/-- The column of the block's positions (the iota over its 256 rows plus the block's first position) repeated across
    the 512 spans: entry (r, n) is the word of position 256 · q + r. -/
theorem posCol_apply (q : Nat) (hq : q < 4) (r : Fin 256) (n : Fin 512) (t : Fin 1024) (ht : t.val = q * 256 + r.val) :
    broadcastTo S256x512 (addi (iota .tc S256x1 32 [0] iota_S256x1_d0_w32) (broadcast S256x1 (Scalar.muli (BitVec.ofNat 32 q) 256#32)))
        broadcasts_S256x1_S256x512 (ix2 r n)
      = Cert.Spec.posWord t := by
  refine (broadcastTo_apply _ broadcasts_S256x1_S256x512 (ix2 r n) (ix2 r (0 : Fin 1)) (fun a => ?_)).trans ?_
  · match a with
    | ⟨0, _⟩ => show r.val = if (256 : Nat) = 1 then 0 else r.val; rw [if_neg (by decide)]
    | ⟨1, _⟩ => show (0 : Nat) = if (1 : Nat) = 1 then 0 else _; rw [if_pos rfl]
  show IntOp.addi (iota .tc S256x1 32 [0] iota_S256x1_d0_w32 (ix2 r (0 : Fin 1))) (Scalar.muli (BitVec.ofNat 32 q) 256#32) = _
  rw [iota_single_apply]
  exact posWord_block q hq r t ht

/-- A [1, 256, 512] block read as [256, 512]: entry (r, f) is the block's (0, r, f). -/
theorem rows_apply (v : FVec Ideal S1x256x512 .f32) (r : Fin 256) (f : Fin 512) :
    shapeCast S256x512 v shapeCasts_S1x256x512_S256x512 (ix2 r f) = v (ix3 (0 : Fin 1) r f) := by
  refine shapeCast_apply _ shapeCasts_S1x256x512_S256x512 (ix2 r f) (ix3 (0 : Fin 1) r f) ?_
  rw [Shape.rowMajor_val_three, Shape.rowMajor_val_two]; show (0 * 256 + r.val) * 512 + f.val = r.val * 512 + f.val; omega

/-- A [256, 512] value stored as a [1, 256, 512] block: entry (0, r, f) is the value's (r, f). -/
theorem block_apply (v : FVec Ideal S256x512 .f32) (r : Fin 256) (f : Fin 512) :
    shapeCast S1x256x512 v shapeCasts_S256x512_S1x256x512 (ix3 (0 : Fin 1) r f) = v (ix2 r f) := by
  refine shapeCast_apply _ shapeCasts_S256x512_S1x256x512 (ix3 (0 : Fin 1) r f) (ix2 r f) ?_
  rw [Shape.rowMajor_val_three, Shape.rowMajor_val_two]; show r.val * 512 + f.val = (0 * 256 + r.val) * 512 + f.val; omega

/-! ## The indicator at an entry -/

/-- The two signed comparisons and-ed, widened, converted and narrowed: at an entry, the unsigned value of the one-bit
    test on that entry's four words. -/
theorem ind_apply (a b c d : IVec S256x512 32) (j : S256x512.Idx) :
    (truncf .bf16 (sitofp (F := Ideal) .f32 (extui 32 (andi (cmpi .sle a b) (cmpi .sle c d)) natLt_1_32)) bitsLt_bf16_f32 : FVec Ideal S256x512 .bf16) j
      = (((IntOp.andi (IntOp.cmpi .sle (a j) (b j)) (IntOp.cmpi .sle (c j) (d j))).toNat : ℝ) : EReal) := by
  show (((((IntOp.andi (IntOp.cmpi .sle (a j) (b j)) (IntOp.cmpi .sle (c j) (d j))).setWidth 32).toInt : ℝ)) : EReal) = _
  rw [bit_toInt]

/-! ## The matrix product at an entry -/

theorem lhs_fuse_0 (j : S256x512.Idx) (q : dot_S256x512_S512x512_S256x512_1_0_0_1_n_n.contr.Idx) :
    (dot_S256x512_S512x512_S256x512_1_0_0_1_n_n.lhsIdx j q 0).val = (j 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhs_fuse_1 (j : S256x512.Idx) (q : dot_S256x512_S512x512_S256x512_1_0_0_1_n_n.contr.Idx) :
    (dot_S256x512_S512x512_S256x512_1_0_0_1_n_n.lhsIdx j q 1).val = (q ⟨0, by decide⟩).val :=
  dot_S256x512_S512x512_S256x512_1_0_0_1_n_n.lhsIdx_val_of_single rfl j q
theorem rhs_fuse_0 (j : S256x512.Idx) (q : dot_S256x512_S512x512_S256x512_1_0_0_1_n_n.contr.Idx) :
    (dot_S256x512_S512x512_S256x512_1_0_0_1_n_n.rhsIdx j q 0).val = (q ⟨0, by decide⟩).val :=
  dot_S256x512_S512x512_S256x512_1_0_0_1_n_n.rhsIdx_val_of_single rfl j q
theorem rhs_fuse_1 (j : S256x512.Idx) (q : dot_S256x512_S512x512_S256x512_1_0_0_1_n_n.contr.Idx) :
    (dot_S256x512_S512x512_S256x512_1_0_0_1_n_n.rhsIdx j q 1).val = (j 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- The [256, 512] by [512, 512] product into the zero accumulator: entry (r, f) is the sum over the 512 contracted
    positions n of the left operand's (r, n) times the right operand's (n, f). -/
theorem matmul_fuse_apply (A : FVec Ideal S256x512 .bf16) (B : FVec Ideal S512x512 .bf16) (r : Fin 256) (f : Fin 512) :
    matmul dot_S256x512_S512x512_S256x512_1_0_0_1_n_n none A B (constant (F := Ideal) S256x512 .f32 0x00000000#32) (ix2 r f)
      = ∑ n : Fin 512, A (ix2 r n) * B (ix2 n f) := by
  simp only [matmul]
  rw [Ideal.matmul_constant_zero_apply, ← Equiv.sum_comp (ValueIdx.contrEquiv1 dot_S256x512_S512x512_S256x512_1_0_0_1_n_n 512 rfl rfl).symm]
  refine Finset.sum_congr rfl fun k _ => ?_
  have hk := ValueIdx.contrEquiv1_symm_val dot_S256x512_S512x512_S256x512_1_0_0_1_n_n 512 rfl rfl k
  have el : dot_S256x512_S512x512_S256x512_1_0_0_1_n_n.lhsIdx (ix2 r f) ((ValueIdx.contrEquiv1 dot_S256x512_S512x512_S256x512_1_0_0_1_n_n 512 rfl rfl).symm k) = ix2 r k := funext fun a => Fin.ext (by
    match a with
    | ⟨0, _⟩ => exact lhs_fuse_0 _ _
    | ⟨1, _⟩ => exact (lhs_fuse_1 _ _).trans hk)
  have er : dot_S256x512_S512x512_S256x512_1_0_0_1_n_n.rhsIdx (ix2 r f) ((ValueIdx.contrEquiv1 dot_S256x512_S512x512_S256x512_1_0_0_1_n_n 512 rfl rfl).symm k) = ix2 k f := funext fun a => Fin.ext (by
    match a with
    | ⟨0, _⟩ => exact (rhs_fuse_0 _ _).trans hk
    | ⟨1, _⟩ => exact rhs_fuse_1 _ _)
  rw [el, er]

/-! ## The stored value at an entry -/

/-- Entry (0, r, f) of what the body stores at the grid point with second coordinate q, from the five loaded blocks: the
    token row's entry plus the span sum at position 256 · q + r, plus the position embedding's entry. -/
theorem fusePay_apply (i : grid1.Coords) (v4 v7 : Vec Ideal S1x1x512 .i32) (v20 : Vec Ideal S512x512 .f32) (v23 v26 : Vec Ideal S1x256x512 .f32)
    (r : Fin 256) (f : Fin 512) (t : Fin 1024) (ht : t.val = (i 1).val * 256 + r.val) :
    (k1_pay1 (F := Ideal) i v4 v7 v20 v23 v26 : S1x256x512.Idx → EReal) (ix3 (0 : Fin 1) r f)
      = ((v23 : S1x256x512.Idx → EReal) (ix3 (0 : Fin 1) r f)
          + ∑ n : Fin 512, Cert.Spec.spanVal ((v4 : S1x1x512.Idx → BitVec 32) (ix3 (0 : Fin 1) (0 : Fin 1) n)) ((v7 : S1x1x512.Idx → BitVec 32) (ix3 (0 : Fin 1) (0 : Fin 1) n)) t
              * (v20 : S512x512.Idx → EReal) (ix2 n f))
        + (v26 : S1x256x512.Idx → EReal) (ix3 (0 : Fin 1) r f) := by
  have hq : (i 1).val < 4 := (i 1).isLt
  unfold k1_pay1
  dsimp only
  refine (block_apply _ r f).trans ?_
  refine congrArg₂ (· + ·) (congrArg₂ (· + ·) (rows_apply v23 r f) ?_) (rows_apply v26 r f)
  refine (matmul_fuse_apply _ _ r f).trans ?_
  refine Finset.sum_congr rfl fun n _ => ?_
  refine congrArg₂ (· * ·) ?_ rfl
  refine (ind_apply _ _ _ _ (ix2 r n)).trans ?_
  unfold Cert.Spec.spanVal Cert.Spec.inSpan
  exact congrArg (fun w : BitVec 1 => ((w.toNat : ℝ) : EReal))
    (congrArg₂ IntOp.andi
      (congrArg₂ (IntOp.cmpi .sle) (spanRow_apply v4 r n) (posCol_apply (i 1).val hq r n t ht))
      (congrArg₂ (IntOp.cmpi .sle) (posCol_apply (i 1).val hq r n t ht) (spanRow_apply v7 r n)))

end Cert.KernelIdeal.Frame

end
-- ==== Proof.KIValue1.lean ====
/-
  What the fused launch leaves in its result array, at the ideal values: entry (b, t, f) is the gathered token row's
  entry, plus the sum over the 512 nodes of the span indicator of position t against node n's span for batch entry b
  times the node table's entry (n, f), plus the position embedding's entry (0, t, f). Entry (b, t, f) lies in the block
  of exactly one grid point, (b, t / 256), at row t % 256; at that point the five staged blocks are the arrays read at
  batch entry b and rows 256 · (t / 256) … + 255, so the body's stored entry is that sum; the 16 blocks tile the array.
-/
import proofs.«400847_j31129922962205_2_alg».proof.Proof.KIRegion1
import proofs.«400847_j31129922962205_2_alg».proof.Proof.KIValue1Pay
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The arrays the launch finds, and the one it leaves, at their literal types -/

/-- The gathered token rows. -/
abbrev opTok (c : Dev nD) : S4x1024x512.Idx → EReal := V c main_v4
/-- The span starts. -/
abbrev opStart (c : Dev nD) : S4x1x512.Idx → BitVec 32 := V c main_v5
/-- The span ends. -/
abbrev opEnd (c : Dev nD) : S4x1x512.Idx → BitVec 32 := V c main_v6
/-- The node table. -/
abbrev opNode (c : Dev nD) : S512x512.Idx → EReal := V c main_arg4
/-- The position embeddings. -/
abbrev opPos (c : Dev nD) : S1x1024x512.Idx → EReal := V c main_arg5
/-- The result array after the launch. -/
abbrev outArr (c : Dev nD) : S4x1024x512.Idx → EReal := (dat1 (F := Ideal) V c).arrAt 5 cfg1.N

/-! ## The result as one function of the arrays the launch finds -/

/-- Entry (b, t, f) of the result. -/
def fuseAt (c : Dev nD) (b : Fin 4) (t : Fin 1024) (f : Fin 512) : EReal :=
  (opTok V c (ix3 b t f)
      + ∑ n : Fin 512, Cert.Spec.spanVal (opStart V c (ix3 b (0 : Fin 1) n)) (opEnd V c (ix3 b (0 : Fin 1) n)) t * opNode V c (ix2 n f))
    + opPos V c (ix3 (0 : Fin 1) t f)

/-- The whole result array. -/
def fuseArr (c : Dev nD) : S4x1024x512.Idx → EReal := fun j => fuseAt V c (j 0) (j 1) (j 2)

/-- The result array at an index with known coordinates. -/
theorem fuseArr_of (c : Dev nD) (j : S4x1024x512.Idx) (b : Fin 4) (t : Fin 1024) (f : Fin 512)
    (h0 : (j 0).val = b.val) (h1 : (j 1).val = t.val) (h2 : (j 2).val = f.val) : fuseArr V c j = fuseAt V c b t f := by
  have e : j = ix3 b t f := funext fun a => Fin.ext (by
    match a with
    | ⟨0, _⟩ => exact h0
    | ⟨1, _⟩ => exact h1
    | ⟨2, _⟩ => exact h2)
  subst e; rfl

theorem hz3 : (![0, 0, 0] : Fin 3 → Nat) = fun _ => 0 := funext fun a => by fin_cases a <;> rfl
theorem hz2 : (![0, 0] : Fin 2 → Nat) = fun _ => 0 := funext fun a => by fin_cases a <;> rfl

/-! ## The block indices -/

/-- The printed index maps, decided over the 16 grid points: the result's block is numbered by the point's two
    coordinates; the token rows move with it, the span starts and ends with its batch entry, the position embeddings
    with its block of rows, and the node table stays. -/
theorem idx_facts1 : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 3) = 0 ∧ win1_4.index t (1 : Fin 3) = win1_5.index t (1 : Fin 3) ∧ win1_4.index t (2 : Fin 3) = 0
    ∧ win1_5.index t (0 : Fin 3) < 4 ∧ win1_5.index t (1 : Fin 3) = (grid1.coords t 1).val ∧ win1_5.index t (1 : Fin 3) < 4 ∧ win1_5.index t (2 : Fin 3) = 0 :=
  (by decide +kernel : ∀ t : Fin grid1.N, _)

/-- Every pair of a batch entry and a block of rows is some point's. -/
theorem idx_onto1 : ∀ (b : Fin 4) (q : Fin 4), ∃ t : Fin cfg1.N, win1_5.index t = ![b.val, q.val, 0] :=
  (by decide +kernel : ∀ (b : Fin 4) (q : Fin 4), ∃ t : Fin grid1.N, win1_5.index t = ![b.val, q.val, 0])

/-! ## The staged blocks as the arrays' entries -/

/-- The token rows' block at point t: entry (0, r, f) is the array's entry at the block's batch entry and row. -/
theorem tokBlk_apply (c : Dev nD) (t : Fin cfg1.N) (r : Fin 256) (f : Fin 512) (b : Fin 4) (p : Fin 1024)
    (h0 : win1_0.index t (0 : Fin 3) = b.val) (h1 : win1_0.index t (1 : Fin 3) * 256 + r.val = p.val) (h2 : win1_0.index t (2 : Fin 3) = 0) :
    (iblk1 V c 0 t : Vec Ideal S1x256x512 .f32) (ix3 (0 : Fin 1) r f) = opTok V c (ix3 b p f) := by
  show V c main_v4 (((cfg1.win 0).blk t).view.emb (ix3 (0 : Fin 1) r f)) = V c main_v4 (ix3 b p f)
  refine congrArg (V c main_v4) (funext fun a => Fin.ext ?_)
  match a with
  | ⟨0, _⟩ => show win1_0.index t (0 : Fin 3) * 1 + 1 * 0 = b.val; omega
  | ⟨1, _⟩ => show win1_0.index t (1 : Fin 3) * 256 + 1 * r.val = p.val; omega
  | ⟨2, _⟩ => show win1_0.index t (2 : Fin 3) * 512 + 1 * f.val = f.val; omega

/-- The span starts' block at point t: entry (0, 0, n) is the array's entry at the block's batch entry. -/
theorem startBlk_apply (c : Dev nD) (t : Fin cfg1.N) (n : Fin 512) (b : Fin 4)
    (h0 : win1_1.index t (0 : Fin 3) = b.val) (h1 : win1_1.index t (1 : Fin 3) = 0) (h2 : win1_1.index t (2 : Fin 3) = 0) :
    (iblk1 V c 1 t : Vec Ideal S1x1x512 .i32) (ix3 (0 : Fin 1) (0 : Fin 1) n) = opStart V c (ix3 b (0 : Fin 1) n) := by
  show V c main_v5 (((cfg1.win 1).blk t).view.emb (ix3 (0 : Fin 1) (0 : Fin 1) n)) = V c main_v5 (ix3 b (0 : Fin 1) n)
  refine congrArg (V c main_v5) (funext fun a => Fin.ext ?_)
  match a with
  | ⟨0, _⟩ => show win1_1.index t (0 : Fin 3) * 1 + 1 * 0 = b.val; omega
  | ⟨1, _⟩ => show win1_1.index t (1 : Fin 3) * 1 + 1 * 0 = 0; omega
  | ⟨2, _⟩ => show win1_1.index t (2 : Fin 3) * 512 + 1 * n.val = n.val; omega

/-- The span ends' block at point t, likewise. -/
theorem endBlk_apply (c : Dev nD) (t : Fin cfg1.N) (n : Fin 512) (b : Fin 4)
    (h0 : win1_2.index t (0 : Fin 3) = b.val) (h1 : win1_2.index t (1 : Fin 3) = 0) (h2 : win1_2.index t (2 : Fin 3) = 0) :
    (iblk1 V c 2 t : Vec Ideal S1x1x512 .i32) (ix3 (0 : Fin 1) (0 : Fin 1) n) = opEnd V c (ix3 b (0 : Fin 1) n) := by
  show V c main_v6 (((cfg1.win 2).blk t).view.emb (ix3 (0 : Fin 1) (0 : Fin 1) n)) = V c main_v6 (ix3 b (0 : Fin 1) n)
  refine congrArg (V c main_v6) (funext fun a => Fin.ext ?_)
  match a with
  | ⟨0, _⟩ => show win1_2.index t (0 : Fin 3) * 1 + 1 * 0 = b.val; omega
  | ⟨1, _⟩ => show win1_2.index t (1 : Fin 3) * 1 + 1 * 0 = 0; omega
  | ⟨2, _⟩ => show win1_2.index t (2 : Fin 3) * 512 + 1 * n.val = n.val; omega

/-- The node table's block at every point is the table. -/
theorem nodeBlk_apply (c : Dev nD) (t : Fin cfg1.N) (n : Fin 512) (f : Fin 512)
    (h0 : win1_3.index t (0 : Fin 2) = 0) (h1 : win1_3.index t (1 : Fin 2) = 0) :
    (iblk1 V c 3 t : Vec Ideal S512x512 .f32) (ix2 n f) = opNode V c (ix2 n f) := by
  show V c main_arg4 (((cfg1.win 3).blk t).view.emb (ix2 n f)) = V c main_arg4 (ix2 n f)
  refine congrArg (V c main_arg4) (funext fun a => Fin.ext ?_)
  match a with
  | ⟨0, _⟩ => show win1_3.index t (0 : Fin 2) * 512 + 1 * n.val = n.val; omega
  | ⟨1, _⟩ => show win1_3.index t (1 : Fin 2) * 512 + 1 * f.val = f.val; omega

/-- The position embeddings' block at point t: entry (0, r, f) is the array's entry at the block's row. -/
theorem posBlk_apply (c : Dev nD) (t : Fin cfg1.N) (r : Fin 256) (f : Fin 512) (p : Fin 1024)
    (h0 : win1_4.index t (0 : Fin 3) = 0) (h1 : win1_4.index t (1 : Fin 3) * 256 + r.val = p.val) (h2 : win1_4.index t (2 : Fin 3) = 0) :
    (iblk1 V c 4 t : Vec Ideal S1x256x512 .f32) (ix3 (0 : Fin 1) r f) = opPos V c (ix3 (0 : Fin 1) p f) := by
  show V c main_arg5 (((cfg1.win 4).blk t).view.emb (ix3 (0 : Fin 1) r f)) = V c main_arg5 (ix3 (0 : Fin 1) p f)
  refine congrArg (V c main_arg5) (funext fun a => Fin.ext ?_)
  match a with
  | ⟨0, _⟩ => show win1_4.index t (0 : Fin 3) * 1 + 1 * 0 = 0; omega
  | ⟨1, _⟩ => show win1_4.index t (1 : Fin 3) * 256 + 1 * r.val = p.val; omega
  | ⟨2, _⟩ => show win1_4.index t (2 : Fin 3) * 512 + 1 * f.val = f.val; omega

/-! ## What a point writes back -/

/-- What point t writes back is block t of the result function: at row r and feature f of the block the body's stored
    entry is the result's entry at the block's batch entry and position 256 · (the block's number) + r. -/
theorem fuse_flushed (c : Dev nD) (t : Fin cfg1.N) :
    (dat1 V c).flushed 5 t = ((cfg1.win 5).blk t).view.read (Elt Ideal) (fuseArr V c) := by
  show (cfg1.win 5).cut (grid1.coords t) ((dat1 V c).after 5 t) = _
  rw [after1_5]
  unfold out1_5
  rw [View.canon_unit_zero hz3]
  simp only [View.ld_unit_zero (S := S1x256x512) hz3, View.ld_unit_zero (S := S1x1x512) hz3, View.ld_unit_zero (S := S512x512) hz2]
  obtain ⟨a0, a1, a2, b0, b1, b2, c0, c1, c2, d0, d1, e0, e1, e2, o0, oq, o1, o2⟩ := idx_facts1 t
  funext y
  have hy0 : (y 0).val < 1 := (y 0).isLt
  have hy1 : (y 1).val < 256 := (y 1).isLt
  have hy2 : (y 2).val < 512 := (y 2).isLt
  obtain ⟨r, hr⟩ : ∃ r : Fin 256, r.val = (y 1).val := ⟨⟨_, hy1⟩, rfl⟩
  obtain ⟨f, hf⟩ : ∃ f : Fin 512, f.val = (y 2).val := ⟨⟨_, hy2⟩, rfl⟩
  obtain ⟨b, hb⟩ : ∃ b : Fin 4, b.val = win1_5.index t (0 : Fin 3) := ⟨⟨_, o0⟩, rfl⟩
  obtain ⟨p, hp⟩ : ∃ p : Fin 1024, p.val = win1_5.index t (1 : Fin 3) * 256 + (y 1).val := ⟨⟨_, by omega⟩, rfl⟩
  have ey : (cfg1.win 5).xinj (grid1.coords t) y = ix3 (0 : Fin 1) r f := funext fun a => Fin.ext (by
    match a with
    | ⟨0, _⟩ => show (y 0).val = 0; omega
    | ⟨1, _⟩ => show (y 1).val = r.val; omega
    | ⟨2, _⟩ => show (y 2).val = f.val; omega)
  refine (congrArg (k1_pay1 (F := Ideal) (grid1.coords t) (iblk1 V c 1 t) (iblk1 V c 2 t) (iblk1 V c 3 t) (iblk1 V c 0 t) (iblk1 V c 4 t)) ey).trans ?_
  refine (fusePay_apply (grid1.coords t) (iblk1 V c 1 t) (iblk1 V c 2 t) (iblk1 V c 3 t) (iblk1 V c 0 t) (iblk1 V c 4 t) r f p (by omega)).trans ?_
  refine Eq.trans ?_ (fuseArr_of V c (((cfg1.win 5).blk t).view.emb y) b p f ?_ ?_ ?_).symm
  · unfold fuseAt
    refine congrArg₂ (· + ·) (congrArg₂ (· + ·) (tokBlk_apply V c t r f b p (by omega) (by omega) a2) (Finset.sum_congr rfl fun n _ => ?_))
      (posBlk_apply V c t r f p e0 (by omega) e2)
    exact congrArg₂ (· * ·)
      (congrArg₂ (fun s e => Cert.Spec.spanVal s e p) (startBlk_apply V c t n b (by omega) b1 b2) (endBlk_apply V c t n b (by omega) c1 c2))
      (nodeBlk_apply V c t n f d0 d1)
  · show win1_5.index t (0 : Fin 3) * 1 + 1 * (y 0).val = b.val; omega
  · show win1_5.index t (1 : Fin 3) * 256 + 1 * (y 1).val = p.val; omega
  · show win1_5.index t (2 : Fin 3) * 512 + 1 * (y 2).val = f.val; omega

/-! ## The blocks tile the array -/

/-- An index of the array is in point t's block iff each coordinate is in the block's range on its axis. -/
theorem mem_blk1 (t : Fin cfg1.N) (i : S4x1024x512.Idx) :
    i ∈ ((cfg1.win 5).blk t).view.set ↔ ∀ a : Fin 3, win1_5.index t a * S1x256x512.size a ≤ (i a).val ∧ (i a).val < win1_5.index t a * S1x256x512.size a + S1x256x512.size a := by
  show i ∈ ((View.whole main_v7).slice (win1_5.rect t)).set ↔ _
  rw [View.set_slice_whole, Rect.mem_set_unit]
  exact Iff.rfl

/-- Every entry (b, t, f) is in the block of the point numbered (b, t / 256). -/
theorem cover1 (i : S4x1024x512.Idx) : ∃ t : Fin cfg1.N, (cfg1.win 5).flush t = true ∧ i ∈ ((cfg1.win 5).blk t).view.set := by
  have hi0 : (i 0).val < 4 := (i 0).isLt
  have hi1 : (i 1).val < 1024 := (i 1).isLt
  have hi2 : (i 2).val < 512 := (i 2).isLt
  obtain ⟨t, ht⟩ := idx_onto1 ⟨(i 0).val, hi0⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 512 ≤ (i 2).val ∧ (i 2).val < win1_5.index t (2 : Fin 3) * 512 + 512; omega

/-! ## The array after the launch -/

/-- The result array after the launch is the result function of the arrays the launch found. -/
theorem fuse_final (c : Dev nD) : outArr V c = fuseArr V c :=
  (dat1 V c).arrAt_eq_of_cover 5 (fuseArr V c) (fun t _ => fuse_flushed V c t) cover1

/-- Entry (b, t, f) of the result array after the launch. -/
theorem fuse_arr (c : Dev nD) (b : Fin 4) (t : Fin 1024) (f : Fin 512) :
    outArr V c (ix3 b t f)
      = (opTok V c (ix3 b t f)
          + ∑ n : Fin 512, Cert.Spec.spanVal (opStart V c (ix3 b (0 : Fin 1) n)) (opEnd V c (ix3 b (0 : Fin 1) n)) t * opNode V c (ix2 n f))
        + opPos V c (ix3 (0 : Fin 1) t f) :=
  congrFun (fuse_final V c) (ix3 b t f)

end Cert.KernelIdeal.Frame

end
-- ==== Proof.KIValue.lean ====
/-
  The kernel's result as one function of the arguments. The fused launch's output array, entry by entry, is the token
  row plus the span sum plus the position row of its operand arrays; those operands are the arguments through the
  reshapes, and the token rows are the gather launch's output, which is the embedding table's rows at the token ids.
-/
import proofs.«400847_j31129922962205_2_alg».proof.Proof.KIHost
import proofs.«400847_j31129922962205_2_alg».proof.Proof.KIValue0
import proofs.«400847_j31129922962205_2_alg».proof.Proof.KIValue1
import proofs.«400847_j31129922962205_2_alg».proof.Proof.Spec
import Idealize.ShloMosaic.PureOps.Ideal

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.StableHlo
open Idealize.ShloMosaic.ValueIdx
open Idealize.SL Idealize.SL.Sem
open Idealize.ShloMosaic.Pipeline (Dat)
open scoped BigOperators

section GatherRestated
variable {F : FTy → Type} [FloatOps F]
/-- The gather launch's output array, the table it reads and the token table's words, at their literal types. -/
abbrev outRows (V : (c : Dev nD) → (b : Ref sig .tc) → Buf (Elt F) ((c : Thread nD τ).loc b)) (a : (pcfg0 (F := F)).Adm) (c : Dev nD) : S4096x4x128.Idx → Elt F .f32 := (dat0 V a c).arrAt 1 (cfg0 a).N
abbrev tableArr (V : (c : Dev nD) → (b : Ref sig .tc) → Buf (Elt F) ((c : Thread nD τ).loc b)) (c : Dev nD) : S32000x4x128.Idx → Elt F .f32 := V c main_v1
abbrev tokWord (a : (pcfg0 (F := F)).Adm) : S4096.Idx → BitVec 32 := a.1 0
/-- Row t of the gather's output is the row of the table that word t of the token table names. -/
theorem gather_rows (V : (c : Dev nD) → (b : Ref sig .tc) → Buf (Elt F) ((c : Thread nD τ).loc b)) (a : (pcfg0 (F := F)).Adm) (c : Dev nD) (t : Fin 4096) (q : Fin 4) (l : Fin 128) :
    outRows V a c (ix3 t q l) = tableArr V c (ix3 (Cert.Spec.row (tokWord a (ix1 t))) q l) := gather_arr V a c t q l
end GatherRestated

variable (m : (ℓ : Loc nD τ sig) → Buf (Elt Ideal) ℓ) (ρ : Dev nD → PrngReg) (hO : Ok m ρ)

/-- The six arguments on core c, at their literal types. -/
abbrev aTok (c : Dev nD) : S4x1024.Idx → BitVec 32 := m ((c : Thread nD τ).loc main_arg0)
abbrev aStart (c : Dev nD) : S4x512.Idx → BitVec 32 := m ((c : Thread nD τ).loc main_arg1)
abbrev aEnd (c : Dev nD) : S4x512.Idx → BitVec 32 := m ((c : Thread nD τ).loc main_arg2)
abbrev aEmb (c : Dev nD) : S32000x512.Idx → EReal := m ((c : Thread nD τ).loc main_arg3)
abbrev aNode (c : Dev nD) : S512x512.Idx → EReal := m ((c : Thread nD τ).loc main_arg4)
abbrev aPos (c : Dev nD) : S1x1024x512.Idx → EReal := m ((c : Thread nD τ).loc main_arg5)

/-- Word 1024·b + t of the token table is token (b, t). -/
theorem tokWord_eq (c : Dev nD) (b : Fin 4) (t : Fin 1024) :
    tokWord (adm m ρ hO 0) (ix1 (⟨b.val * 1024 + t.val, by omega⟩ : Fin 4096)) = aTok m c (ix2 b t) := by
  obtain rfl : c = 0 := Subsingleton.elim _ _
  show (V1 m ρ 0 main_v0 : S4096.Idx → BitVec 32) _ = _
  rw [V1_main_v0]
  exact relay_tokens _ b t

/-- Token rows: entry (b, t, f) of the fused launch's first operand is the embedding table's entry in column f of the
    row token (b, t) names. Through the two re-lays it is entry (1024·b + t, f / 128, f % 128) of the gather's output;
    that is the table re-laid, at the row word 1024·b + t of the token table names; that word is token (b, t); and
    128·(f / 128) + f % 128 = f. -/
theorem tokenRows (c : Dev nD) (b : Fin 4) (t : Fin 1024) (f : Fin 512) :
    opTok (V3 m ρ hO) c (ix3 b t f) = aEmb m c (ix2 (Cert.Spec.row (aTok m c (ix2 b t))) f) := by
  have e1 : opTok (V3 m ρ hO) c (ix3 b t f)
      = outRows (V1 m ρ) (adm m ρ hO 0) c (ix3 (⟨b.val * 1024 + t.val, by omega⟩ : Fin 4096) (⟨f.val / 128, by omega⟩ : Fin 4) (⟨f.val % 128, by omega⟩ : Fin 128)) := by
    show (V3 m ρ hO c main_v4 : S4x1024x512.Idx → EReal) (ix3 b t f) = _
    rw [V3_main_v4]
    refine (relay_rows _ b t f).trans ?_
    exact congrFun (hF0 m ρ hO c 1).symm _
  rw [e1, gather_rows, tokWord_eq m ρ hO c b t]
  show (V1 m ρ c main_v1 : S32000x4x128.Idx → EReal) _ = _
  rw [V1_main_v1]
  refine (relay_table _ _ _ _).trans ?_
  refine congrArg _ (congrArg _ (Fin.ext ?_))
  show f.val / 128 * 128 + f.val % 128 = f.val
  omega

theorem spanStart (c : Dev nD) (b : Fin 4) (n : Fin 512) : opStart (V3 m ρ hO) c (ix3 b (0 : Fin 1) n) = aStart m c (ix2 b n) := by
  show (V3 m ρ hO c main_v5 : S4x1x512.Idx → BitVec 32) _ = _
  rw [V3_main_v5]
  exact relay_spans _ b n
theorem spanEnd (c : Dev nD) (b : Fin 4) (n : Fin 512) : opEnd (V3 m ρ hO) c (ix3 b (0 : Fin 1) n) = aEnd m c (ix2 b n) := by
  show (V3 m ρ hO c main_v6 : S4x1x512.Idx → BitVec 32) _ = _
  rw [V3_main_v6]
  exact relay_spans _ b n
theorem nodeArr (c : Dev nD) : opNode (V3 m ρ hO) c = aNode m c := V3_main_arg4 m ρ hO c
theorem posArr (c : Dev nD) : opPos (V3 m ρ hO) c = aPos m c := V3_main_arg5 m ρ hO c

/-- THE KERNEL'S RESULT: the fused launch's output array after its last write-back is the specification's function of
    the six arguments. -/
theorem result_eq_G (c : Dev nD) :
    (dat1 (F := Ideal) (V3 m ρ hO) c).arrAt 5 cfg1.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  show outArr (V3 m ρ hO) c = Cert.Spec.G (aTok m c) (aStart m c) (aEnd m c) (aEmb m c) (aNode m c) (aPos m c)
  funext j
  obtain ⟨b, t, f, rfl⟩ : ∃ (b : Fin 4) (t : Fin 1024) (f : Fin 512), j = ix3 b t f := ⟨j 0, j 1, j 2, eq_ix3 j⟩
  rw [fuse_arr, Cert.Spec.G_apply]
  unfold Cert.Spec.g
  rw [tokenRows m ρ hO c b t f, nodeArr m ρ hO c, posArr m ρ hO c]
  refine congrArg₂ (· + ·) (congrArg₂ (· + ·) rfl (Finset.sum_congr rfl fun n _ => ?_)) rfl
  rw [spanStart m ρ hO c b n, spanEnd m ρ hO c b n]

end Cert.KernelIdeal.Frame

end
-- ==== Proof.RefValue.lean ====
/-
  The reference's value is G.

  The reference computes, entry by entry,
    out[b, t, f] = (table row of the start index at (b, t), column f  +  Σ_k ind[b, t, k] · embed_node[k, f]) + pos_emb[0, t, f],
  where the start index is the token (kept as it is when it is not negative), read signed and clamped to the rows of
  the table, and ind[b, t, k] is the one-bit word "starts[b, k] ≤ t ≤ ends[b, k]" (signed) read as 0 or 1.
  For tokens in [0, 32000) the selection keeps the token, the signed reading is the unsigned one and the clamp does
  nothing, so the row is the one the specification names; every other stage is read at an index and the two sums over
  the 512 nodes agree term by term.
-/
import proofs.«400847_j31129922962205_2_alg».proof.Proof.Gen.ReferenceIdeal.Read
import proofs.«400847_j31129922962205_2_alg».proof.Proof.Spec

noncomputable section

namespace Cert.RefValue

open Idealize.ShloMosaic Idealize.ShloMosaic.ValueIdx Cert.ReferenceIdeal Cert.ReferenceIdeal.Read

/-- A start index read as a signed integer and clamped to the table's rows. -/
def startRow (w : BitVec 32) : Fin 32000 := ⟨min w.toInt.toNat 31999, by omega⟩

/-- The gather read at (b, t, f): the operand at the row named by the start index at (b, t, 0), read signed and clamped
    into [0, 31999], and at column f. On the row axis the slice has size one and the axis is collapsed, so the coordinate
    is the clamped start; on the column axis there is no start index and the offset coordinate is the result's f. -/
theorem gather_apply {α : Type} (x : S32000x512.Idx → α) (idx : IVec S4x1024x1 32) (b : Fin 4) (t : Fin 1024) (f : Fin 512) :
    Host.gather gather_S32000x512_S4x1024x1_S4x1024x512_2_0_n_n_0_2_1512 x idx (ix3 b t f)
      = x (ix2 (startRow (idx (ix3 b t (0 : Fin 1)))) f) := by
  unfold Host.gather
  congr 1
  funext a
  refine Fin.ext ?_
  match a with
  | ⟨0, _⟩ =>
    show gather_S32000x512_S4x1024x1_S4x1024x512_2_0_n_n_0_2_1512.start (ix3 b t f) idx 0
        + gather_S32000x512_S4x1024x1_S4x1024x512_2_0_n_n_0_2_1512.batchCoord (ix3 b t f) 0
        + gather_S32000x512_S4x1024x1_S4x1024x512_2_0_n_n_0_2_1512.offCoord (ix3 b t f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x512_S4x1024x1_S4x1024x512_2_0_n_n_0_2_1512.startIndexMap from List.mem_singleton.mpr rfl)]
    have hsi : gather_S32000x512_S4x1024x1_S4x1024x512_2_0_n_n_0_2_1512.siIdx (ix3 b t f)
        ⟨List.idxOf (0 : Fin 2) gather_S32000x512_S4x1024x1_S4x1024x512_2_0_n_n_0_2_1512.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S32000x512_S4x1024x1_S4x1024x512_2_0_n_n_0_2_1512.start (ix3 b t f) idx 1
        + gather_S32000x512_S4x1024x1_S4x1024x512_2_0_n_n_0_2_1512.batchCoord (ix3 b t f) 1
        + gather_S32000x512_S4x1024x1_S4x1024x512_2_0_n_n_0_2_1512.offCoord (ix3 b t f) 1 = f.val
    rw [GatherDims.batchCoord_eq_zero _ _ _ List.not_mem_nil]
    unfold GatherDims.start
    rw [dif_neg (show ¬ (1 : Fin 2) ∈ gather_S32000x512_S4x1024x1_S4x1024x512_2_0_n_n_0_2_1512.startIndexMap by decide)]
    simp only [Nat.add_zero, Nat.zero_add]
    unfold GatherDims.offCoord
    rw [dif_pos (show (1 : Fin 2) ∈ gather_S32000x512_S4x1024x1_S4x1024x512_2_0_n_n_0_2_1512.sKept by decide)]
    rfl

/-- A word below 32000 read as a signed integer is its unsigned value. -/
theorem toInt_toNat_of_lt {w : BitVec 32} (h : w.toNat < 32000) : w.toInt.toNat = w.toNat := by
  have e := BitVec.toInt_eq_toNat_cond w
  omega

/-- A word below 32000 is not negative: the signed test "w < 0" gives the bit 0. -/
theorem slt_zero_of_lt {w : BitVec 32} (h : w.toNat < 32000) : IntOp.cmpi .slt w 0#32 = 0#1 := by
  refine eq_zero_of_ne_one fun h1 => ?_
  have h2 := IntOp.cmpi_slt.mp h1
  have e := BitVec.toInt_eq_toNat_cond w
  have z : (0#32 : BitVec 32).toInt = 0 := by decide
  omega

/-- The start index at (b, t, 0) is the token at (b, t): the selection keeps a token that is not negative. -/
theorem start_apply (tok : IVec S4x1024 32) (hr : ∀ i, (tok i).toNat < 32000) (b : Fin 4) (t : Fin 1024) :
    val_main_v5 (F := Ideal) tok (ix3 b t (0 : Fin 1)) = tok (ix2 b t) := by
  rw [val_main_v5_apply]
  have hi : idx_main_v5 (ix3 b t (0 : Fin 1)) = ix2 b t := by
    funext a; refine Fin.ext ?_
    match a with
    | ⟨0, _⟩ => rfl
    | ⟨1, _⟩ => rfl
  rw [hi, val_main_v4_apply, val_main_v1_apply, val_main_v0_apply, val_main_c_apply, slt_zero_of_lt (hr _), select_zero]

/-- For tokens in [0, 32000) the reference's result is the specified array G. -/
theorem ref_eq_G (tok : IVec Cert.Spec.S4x1024 32) (st en : IVec Cert.Spec.S4x512 32) (E : FVec Ideal Cert.Spec.S32000x512 .f32)
    (Nd : FVec Ideal Cert.Spec.S512x512 .f32) (P : FVec Ideal Cert.Spec.S1x1024x512 .f32)
    (hr : ∀ i, (tok i).toNat < 32000) :
    val_main_v23 (F := Ideal) tok st en E Nd P = Cert.Spec.G tok st en E Nd P := by
  funext j
  obtain ⟨b, t, f, rfl⟩ : ∃ b t f, j = ix3 b t f := ⟨j 0, j 1, j 2, eq_ix3 j⟩
  rw [Cert.Spec.G_apply]
  unfold Cert.Spec.g
  rw [val_main_v23_apply, val_main_v21_apply, val_main_v22_apply, val_main_v20_apply]
  simp only [Ideal.addf_def]
  have hg : val_main_v6 (F := Ideal) tok E (ix3 b t f) = E (ix2 (Cert.Spec.row (tok (ix2 b t))) f) := by
    unfold val_main_v6
    rw [gather_apply, start_apply tok hr]
    congr 2
    refine Fin.ext ?_
    show min (tok (ix2 b t)).toInt.toNat 31999 = min (tok (ix2 b t)).toNat 31999
    rw [toInt_toNat_of_lt (hr _)]
  have hs : ∀ n : Fin 512, val_main_v19 (F := Ideal) st en (lidx_main_v20 (ix3 b t f) n)
      = Cert.Spec.spanVal (st (ix2 b n)) (en (ix2 b n)) t := by
    intro n
    have hl : lidx_main_v20 (ix3 b t f) n = ix3 b t n := by
      funext a; refine Fin.ext ?_
      match a with
      | ⟨0, _⟩ => rfl
      | ⟨1, _⟩ => rfl
      | ⟨2, _⟩ => rfl
    have h8 : idx_main_v8 (idx_main_v10 (ix3 b t n)) = ix2 b n := by
      funext a; refine Fin.ext ?_
      match a with
      | ⟨0, _⟩ => rfl
      | ⟨1, _⟩ => rfl
    have h14 : idx_main_v14 (idx_main_v16 (ix3 b t n)) = ix2 b n := by
      funext a; refine Fin.ext ?_
      match a with
      | ⟨0, _⟩ => rfl
      | ⟨1, _⟩ => rfl
    rw [hl, val_main_v19_apply, val_main_v18_apply, val_main_v12_apply, val_main_v17_apply, val_main_v10_apply,
      val_main_v11_apply, val_main_v15_apply, val_main_v16_apply, val_main_v8_apply, val_main_v9_apply,
      val_main_v13_apply, val_main_v14_apply, val_main_v7_apply, h8, h14]
    rfl
  have hn : ∀ n : Fin 512, ridx_main_v20 (ix3 b t f) n = ix2 n f := by
    intro n
    funext a; refine Fin.ext ?_
    match a with
    | ⟨0, _⟩ => rfl
    | ⟨1, _⟩ => rfl
  have hp : idx_main_v22 (ix3 b t f) = ix3 (0 : Fin 1) t f := by
    funext a; refine Fin.ext ?_
    match a with
    | ⟨0, _⟩ => rfl
    | ⟨1, _⟩ => rfl
    | ⟨2, _⟩ => rfl
  rw [hg, hp]
  congr 2
  exact Finset.sum_congr rfl fun n _ => by rw [hs n, hn n]

end Cert.RefValue

end
-- ==== Proof.lean ====
/-
  The certificate of the token-embedding kernel against its reference: out[b, t, f] = (embed_tok[tokens[b, t], f]
  + Σ_n span[b, t, n] · embed_node[n, f]) + pos_emb[0, t, f], where span[b, t, n] is 1 when starts[b, n] ≤ t ≤ ends[b, n]
  (signed) and 0 otherwise.

  The kernel is two launches: a row gather driven by the token ids as a prefetched table, then, per (batch entry,
  block of 256 positions), the 0/1 span indicator multiplied into the node table in one matrix product and the two
  additions. The precondition asks, besides finite float inputs, that every token id lies in [0, 32000): outside it the
  reference itself indexes outside the embedding table, and the gather launch's block would leave the table.

  Frames: each kernel program runs as four segments (two reshapes, the gather, four reshapes, the fused launch), each
  launch's body run symbolically, the arguments read back unchanged at the end; the reference is a straight line of
  host operations. The ideal pass rewrote nothing, so the idealization claim is empty. Equality of results: both
  programs end at the one function Cert.Spec.G of the arguments — the kernel's by reading the two launches' output
  arrays block by block, the reference's by reading its operations at an index; the two sums over the 512 nodes are the
  same sum term by term, so no law beyond the definitions is needed, and finiteness of the float inputs is never used.
-/
import proofs.«400847_j31129922962205_2_alg».proof.Defs
import proofs.«400847_j31129922962205_2_alg».proof.Proof.Gen.Kernel
import proofs.«400847_j31129922962205_2_alg».proof.Proof.Gen.KernelIdeal
import proofs.«400847_j31129922962205_2_alg».proof.Proof.Gen.ReferenceIdeal
import proofs.«400847_j31129922962205_2_alg».proof.Proof.Gen.ReferenceIdeal.Run
import proofs.«400847_j31129922962205_2_alg».proof.Proof.Gen.ReferenceIdeal.Read
import proofs.«400847_j31129922962205_2_alg».proof.Proof.Gen.Pre_finite_inputs
import proofs.«400847_j31129922962205_2_alg».proof.Proof.KFrame
import proofs.«400847_j31129922962205_2_alg».proof.Proof.KIValue
import proofs.«400847_j31129922962205_2_alg».proof.Proof.RefValue
import proofs.«400847_j31129922962205_2_alg».proof.Proof.PreRange
import Idealize.ShloMosaic.Adequacy
import Idealize.ShloMosaic.Init

noncomputable section

namespace Cert.Proof

open Idealize.ShloMosaic Idealize.SL.Sem

/-- The precondition gives the token range on every device, at either instance. -/
theorem tok_lt_K (m : (ℓ : Loc Cert.Kernel.nD Cert.Kernel.τ Cert.Kernel.sig) → Buf (Elt Bits) ℓ) (h : Cert.Pre_Kernel m)
    (c : Dev Cert.Kernel.nD) (i : Cert.Kernel.S4x1024.Idx) :
    ((m ((c.tc : Thread Cert.Kernel.nD Cert.Kernel.τ).loc Cert.Kernel.main_arg0) : Cert.Kernel.S4x1024.Idx → BitVec 32) i).toNat < 32000 :=
  Cert.PreRange.tok_lt_of_pre (F := Bits) _ _ _ _ _ _ (h c) i

theorem tok_lt_KI (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S4x1024.Idx) :
    ((m ((c.tc : Thread Cert.KernelIdeal.nD Cert.KernelIdeal.τ).loc Cert.KernelIdeal.main_arg0) : Cert.KernelIdeal.S4x1024.Idx → BitVec 32) i).toNat < 32000 :=
  Cert.PreRange.tok_lt_of_pre (F := Ideal) _ _ _ _ _ _ (h c) i

theorem frame_K : Cert.frame_Kernel := fun m ρ h =>
  Cert.Kernel.Frame.frame m ρ (Cert.Kernel.Frame.ok_of_lt m ρ (tok_lt_K m h))

theorem frame_KI : Cert.frame_KernelIdeal := fun m ρ h =>
  Cert.KernelIdeal.Frame.frame m ρ (Cert.KernelIdeal.Frame.ok_of_lt m ρ (tok_lt_KI m h))

theorem frame_R : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at Cert.Spec.G of the arguments: the kernel's fused launch leaves it in the result
    array, the reference's last operation computes it. -/
theorem algebraic : Cert.algebraic_KernelIdeal_ReferenceIdeal := by
  intro m ρ m' ρ' hpre hagree
  have hr := tok_lt_KI m hpre
  have hO := Cert.KernelIdeal.Frame.ok_of_lt m ρ hr
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Frame.result_eq_G m ρ hO c), (h c).2⟩)
      (Cert.KernelIdeal.Frame.run_result (F := Ideal) m ρ hO)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v23_eq, (hagree c).1, (hagree c).2.1, (hagree c).2.2.1, (hagree c).2.2.2.1,
      (hagree c).2.2.2.2.1, (hagree c).2.2.2.2.2]
    exact Cert.RefValue.ref_eq_G _ _ _ _ _ _ (hr c)

theorem claim : Cert.Claim := ⟨Cert.Kernel.Gen.facts, Cert.KernelIdeal.Gen.facts, Cert.ReferenceIdeal.Gen.facts, Cert.Pre_finite_inputs.Gen.facts,
  frame_K, frame_KI, frame_R, preserves, algebraic⟩

end Cert.Proof

end
